-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x4096 : Shape := ⟨2, ![10000, 4096]⟩
abbrev S128x128 : Shape := ⟨2, ![128, 128]⟩
abbrev S_ : Shape := ⟨0, ![]⟩
abbrev S10000 : Shape := ⟨1, ![10000]⟩
abbrev S10000x1 : Shape := ⟨2, ![10000, 1]⟩
abbrev S4096 : Shape := ⟨1, ![4096]⟩

class Facts : Prop where
  reducesTo_S10000x4096_S10000_d1 : S10000x4096.ReducesTo [1] S10000
  h_S_ : 0 < S_.numel
  bcast_S10000_S10000x1_0 : S10000.BroadcastsInDim S10000x1 (![0] : Fin 1 → Fin S10000x1.rank)
  bcast_S10000x1_S10000x4096_0_1 : S10000x1.BroadcastsInDim S10000x4096 (![0, 1] : Fin 2 → Fin S10000x4096.rank)
  reducesTo_S10000x4096_S4096_d0 : S10000x4096.ReducesTo [0] S4096
  bcast_S_S10000x128 : S_.BroadcastsInDim S10000x128 (![] : Fin 0 → Fin S10000x128.rank)
  reducesTo_S10000x128_S_d0_1 : S10000x128.ReducesTo [0, 1] S_
  bcast_S_S10000x4096 : S_.BroadcastsInDim S10000x4096 (![] : Fin 0 → Fin S10000x4096.rank)
  reducesTo_S10000x4096_S_d0_1 : S10000x4096.ReducesTo [0, 1] S_
  bcast_S_S128x128 : S_.BroadcastsInDim S128x128 (![] : Fin 0 → Fin S128x128.rank)
  reducesTo_S128x128_S_d0_1 : S128x128.ReducesTo [0, 1] S_
  bcast_S_S10000 : S_.BroadcastsInDim S10000 (![] : Fin 0 → Fin S10000.rank)
  reducesTo_S10000_S_d0 : S10000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v0 : FVec F S10000 .f32) (main_v6 : FVec F S4096 .f32) (main_v15 : IVec S_ 1) (main_v16 : FVec F S128x128 .f32) : IVec S_ 1 :=
  let main_cst_5 : FVec F S_ .f32 := constant S_ .f32 0x7F800000#32
  let main_v17 : FVec F S128x128 .f32 := broadcastInDim S128x128 ![] bcast_S_S128x128 main_cst_5
  let main_v18 : IVec S128x128 1 := cmpf .olt main_v16 main_v17
  let main_c_6 : IVec S_ 1 := constantI S_ 1 1#1
  let main_v19 : IVec S_ 1 := (fun x v => Host.reduce IntOp.andi x v reducesTo_S128x128_S_d0_1 h_S_) main_v18 main_c_6
  let main_v20 : IVec S_ 1 := andi main_v15 main_v19
  let main_cst_7 : FVec F S_ .f32 := constant S_ .f32 0x00000000#32
  let main_v21 : FVec F S10000 .f32 := broadcastInDim S10000 ![] bcast_S_S10000 main_cst_7
  let main_v22 : IVec S10000 1 := cmpf .oge main_v0 main_v21
  let main_c_8 : IVec S_ 1 := constantI S_ 1 1#1
  let main_v23 : IVec S_ 1 := (fun x v => Host.reduce IntOp.andi x v reducesTo_S10000_S_d0 h_S_) main_v22 main_c_8
  let main_v24 : IVec S_ 1 := andi main_v20 main_v23
  let main_cst_9 : FVec F S_ .f32 := constant S_ .f32 0x00000000#32
  let main_v25 : FVec F S4096 .f32 := broadcastInDim S4096 ![] bcast_S_S4096 main_cst_9
  let main_v26 : IVec S4096 1 := cmpf .oge main_v6 main_v25
  let main_c_10 : IVec S_ 1 := constantI S_ 1 1#1
  let main_v27 : IVec S_ 1 := (fun x v => Host.reduce IntOp.andi x v reducesTo_S4096_S_d0 h_S_) main_v26 main_c_10
  let main_v28 : IVec S_ 1 := andi main_v24 main_v27
  main_v28

def fn {F : FTy → Type} [FloatOps F] (main_arg0 : FVec F S10000x128 .f32) (main_arg1 : FVec F S10000x4096 .f32) (main_arg2 : FVec F S128x128 .f32) : IVec S_ 1 :=
  let main_cst : FVec F S_ .f32 := constant S_ .f32 0x00000000#32
  let main_v0 : FVec F S10000 .f32 := (fun x v => Host.reduceAdd x v reducesTo_S10000x4096_S10000_d1 h_S_) main_arg1 main_cst
  let main_v1 : FVec F S10000x1 .f32 := broadcastInDim S10000x1 ![0] bcast_S10000_S10000x1_0 main_v0
  let main_v2 : FVec F S10000x4096 .f32 := broadcastInDim S10000x4096 ![0, 1] bcast_S10000x1_S10000x4096_0_1 main_v1
  let main_v3 : FVec F S10000x4096 .f32 := mulf main_v2 main_arg1
  let main_cst_0 : FVec F S_ .f32 := constant S_ .f32 0x00000000#32
  let main_v4 : FVec F S4096 .f32 := (fun x v => Host.reduceAdd x v reducesTo_S10000x4096_S4096_d0 h_S_) main_v3 main_cst_0
  let main_cst_1 : FVec F S_ .f32 := constant S_ .f32 0x00000000#32
  let main_v5 : FVec F S4096 .f32 := (fun x v => Host.reduceAdd x v reducesTo_S10000x4096_S4096_d0 h_S_) main_arg1 main_cst_1
  let main_v6 : FVec F S4096 .f32 := Host.divf main_v4 main_v5
  let main_v7 : FVec F S10000x128 .f32 := Host.absf main_arg0
  let main_cst_2 : FVec F S_ .f32 := constant S_ .f32 0x7F800000#32
  let main_v8 : FVec F S10000x128 .f32 := broadcastInDim S10000x128 ![] bcast_S_S10000x128 main_cst_2
  let main_v9 : IVec S10000x128 1 := cmpf .olt main_v7 main_v8
  let main_c : IVec S_ 1 := constantI S_ 1 1#1
  let main_v10 : IVec S_ 1 := (fun x v => Host.reduce IntOp.andi x v reducesTo_S10000x128_S_d0_1 h_S_) main_v9 main_c
  let main_v11 : FVec F S10000x4096 .f32 := Host.absf main_arg1
  let main_cst_3 : FVec F S_ .f32 := constant S_ .f32 0x7F800000#32
  let main_v12 : FVec F S10000x4096 .f32 := broadcastInDim S10000x4096 ![] bcast_S_S10000x4096 main_cst_3
  let main_v13 : IVec S10000x4096 1 := cmpf .olt main_v11 main_v12
  let main_c_4 : IVec S_ 1 := constantI S_ 1 1#1
  let main_v14 : IVec S_ 1 := (fun x v => Host.reduce IntOp.andi x v reducesTo_S10000x4096_S_d0_1 h_S_) main_v13 main_c_4
  let main_v15 : IVec S_ 1 := andi main_v10 main_v14
  let main_v16 : FVec F S128x128 .f32 := Host.absf main_arg2
  fn_part1 (F := F) main_v0 main_v6 main_v15 main_v16
-- ==== Kernel.lean ====
abbrev S10000x128 : Shape := ⟨2, ![10000, 128]⟩
abbrev S10000x4096 : Shape := ⟨2, ![10000, 4096]⟩
abbrev S128x128 : Shape := ⟨2, ![128, 128]⟩
abbrev S128x4096 : Shape := ⟨2, ![128, 4096]⟩
abbrev S1x4096 : Shape := ⟨2, ![1, 4096]⟩
abbrev S400x128 : Shape := ⟨2, ![400, 128]⟩
abbrev S400x4096 : Shape := ⟨2, ![400, 4096]⟩
abbrev S128x400 : Shape := ⟨2, ![128, 400]⟩
abbrev S400 : Shape := ⟨1, ![400]⟩
abbrev S400x1 : Shape := ⟨2, ![400, 1]⟩
abbrev S4096 : Shape := ⟨1, ![4096]⟩

abbrev nBuf : Space → Nat
  | .hbm => 8
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x4096, .f32⟩
  | .hbm, ⟨2, _⟩ => ⟨S128x128, .f32⟩
  | .hbm, ⟨3, _⟩ => ⟨S128x4096, .f32⟩
  | .hbm, ⟨4, _⟩ => ⟨S1x4096, .f32⟩
  | .hbm, ⟨5, _⟩ => ⟨S1x4096, .f32⟩
  | .hbm, ⟨6, _⟩ => ⟨S128x128, .f32⟩
  | .hbm, ⟨7, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S400x4096, .f32⟩
  | .local _ .vmem, ⟨3, _⟩ => ⟨S400x4096, .f32⟩
  | .local _ .vmem, ⟨4, _⟩ => ⟨S128x4096, .f32⟩
  | .local _ .vmem, ⟨5, _⟩ => ⟨S1x4096, .f32⟩
  | .local _ .vmem, ⟨6, _⟩ => ⟨S1x4096, .f32⟩
  | .local _ .vmem, ⟨7, _⟩ => ⟨S400x4096, .f32⟩
  | .local _ .vmem, ⟨8, _⟩ => ⟨S400x4096, .f32⟩
  | .local _ .vmem, ⟨9, _⟩ => ⟨S400x128, .f32⟩
  | .local _ .vmem, ⟨10, _⟩ => ⟨S400x128, .f32⟩
  | .local _ .vmem, ⟨11, _⟩ => ⟨S128x4096, .f32⟩
  | .local _ .vmem, ⟨12, _⟩ => ⟨S1x4096, .f32⟩
  | .local _ .vmem, ⟨13, _⟩ => ⟨S1x4096, .f32⟩
  | .local _ .vmem, ⟨14, _⟩ => ⟨S128x128, .f32⟩
  | .local _ .vmem, ⟨15, _⟩ => ⟨S400x128, .f32⟩
  | .local _ .vmem, ⟨16, _⟩ => ⟨S400x128, .f32⟩
  | .local _ .vmem, ⟨17, _⟩ => ⟨S128x4096, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_6 : BitVec 32 := 0#32
  let v16 : BitVec 1 := Scalar.cmpi .ne v15 c0_i32_6
  v16

def k0_cond2 (i : grid0.Coords) : BitVec 1 :=
  let arg0 : BitVec 32 := BitVec.ofNat 32 (i 0).val
  let c0_i32_7 : BitVec 32 := 0#32
  let v17 : BitVec 1 := Scalar.cmpi .ne arg0 c0_i32_7
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S400x4096_S400x4096_0_0 : ∀ a, (![0, 0] : Fin 2 → Nat) a + S400x4096.size a ≤ S400x4096.size a
  h_S400x4096 : 0 < S400x4096.numel
  inb_S400x128_S400x128_0_0 : ∀ a, (![0, 0] : Fin 2 → Nat) a + S400x128.size a ≤ S400x128.size a
  h_S400x128 : 0 < S400x128.numel
  transposes_S400x128_p1_0_S128x400 : S400x128.Transposes [1, 0] S128x400
  bitsLt_bf16_f32 : FTy.bits .bf16 < FTy.bits .f32
  reduces_S400x4096_S400 : S400x4096.Reduces [1] S400
  shapeCasts_S400_S400x1 : S400.ShapeCasts S400x1
  reduces_S400x4096_S4096 : S400x4096.Reduces [0] S4096
  shapeCasts_S4096_S1x4096 : S4096.ShapeCasts S1x4096
  broadcasts_S400x1_S400x4096 : S400x1.Broadcasts S400x4096
  inb_S128x4096_S128x4096_0_0 : ∀ a, (![0, 0] : Fin 2 → Nat) a + S128x4096.size a ≤ S128x4096.size a
  h_S128x4096 : 0 < S128x4096.numel
  inb_S1x4096_S1x4096_0_0 : ∀ a, (![0, 0] : Fin 2 → Nat) a + S1x4096.size a ≤ S1x4096.size a
  h_S1x4096 : 0 < S1x4096.numel
  shapeCasts_S128x4096_S128x4096 : S128x4096.ShapeCasts S128x4096
  shapeCasts_S1x4096_S1x4096 : S1x4096.ShapeCasts S1x4096
  transposes_S128x128_S128x128_1_0 : S128x128.Transposes [1, 0] S128x128
  broadcasts_S1x4096_S128x4096 : S1x4096.Broadcasts S128x4096
  packedbf16_S128x4096_S128x4096_0_0 : (Rect.unit (s := S128x4096) ![0, 0] S128x4096.size inb_S128x4096_S128x4096_0_0).PackedRows (EltTy.packing .bf16)
  broadcasts_S400x1_S400x128 : S400x1.Broadcasts S400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S128x400_S400x4096_S128x4096_1_0_0_1_n_n_wf : DotDims.WF S128x400 S400x4096 S128x4096 [1] [0] [0] [1] [] []
  dot_S400x4096_S128x4096_S400x128_1_1_0_0_n_n_wf : DotDims.WF S400x4096 S128x4096 S400x128 [1] [1] [0] [0] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x4096.size a ≤ S10000x4096.size a
  hwx0_1 : ∀ i : grid0.Coords, EltTy.bits .f32 = 32 ∨ (Rect.block (s := S10000x4096) S400x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .f32 = 32 ∨ (Rect.block (s := S128x4096) S128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x4096.size a ≤ S10000x4096.size a
  hwx1_0 : ∀ i : grid1.Coords, EltTy.bits .f32 = 32 ∨ (Rect.block (s := S10000x4096) S400x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x128.size a ≤ S10000x128.size a
  hwx1_1 : ∀ i : grid1.Coords, EltTy.bits .f32 = 32 ∨ (Rect.block (s := S10000x128) S400x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S128x4096.size a
  hwx1_2 : ∀ i : grid1.Coords, EltTy.bits .f32 = 32 ∨ (Rect.block (s := S128x4096) S128x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)

variable [Facts₀]

def dot_S128x400_S400x4096_S128x4096_1_0_0_1_n_n : DotDims S128x400 S400x4096 S128x4096 where
  lhsContracting := [1]
  rhsContracting := [0]
  lhsNonContracting := [0]
  rhsNonContracting := [1]
  lhsBatch := []
  rhsBatch := []
  wf := dot_S128x400_S400x4096_S128x4096_1_0_0_1_n_n_wf
def dot_S400x4096_S128x4096_S400x128_1_1_0_0_n_n : DotDims S400x4096 S128x4096 S400x128 where
  lhsContracting := [1]
  rhsContracting := [1]
  lhsNonContracting := [0]
  rhsNonContracting := [0]
  lhsBatch := []
  rhsBatch := []
  wf := dot_S400x4096_S128x4096_S400x128_1_1_0_0_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x4096.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond1 i == 1#1) && !(k0_cond2 i == 1#1) | 3 => fun i => !(k0_cond1 i == 1#1) && !(k0_cond2 i == 1#1) | 4 => fun i => !(k0_cond1 i == 1#1) && !(k0_cond2 i == 1#1) | ⟨_ + 5, h⟩ => absurd h (Nat.not_lt.2 (Nat.le_add_left _ _))

abbrev win1_0 : Pipeline.Window sig grid1 :=
  Pipeline.Window.ofSpec (Memref.whole main_arg1) S400x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S128x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_2) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x4096 : Shape := ⟨2, ![10000, 4096]⟩
abbrev S128x128 : Shape := ⟨2, ![128, 128]⟩
abbrev S4096x10000 : Shape := ⟨2, ![4096, 10000]⟩
abbrev S4096x128 : Shape := ⟨2, ![4096, 128]⟩
abbrev S_ : Shape := ⟨0, ![]⟩
abbrev S10000 : Shape := ⟨1, ![10000]⟩
abbrev S10000x1 : Shape := ⟨2, ![10000, 1]⟩
abbrev S4096 : Shape := ⟨1, ![4096]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x4096, .f32⟩
  | .hbm, ⟨2, _⟩ => ⟨S128x128, .f32⟩
  | .hbm, ⟨3, _⟩ => ⟨S4096x10000, .f32⟩
  | .hbm, ⟨4, _⟩ => ⟨S4096x128, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S10000x4096, .f32⟩
  | .hbm, ⟨9, _⟩ => ⟨S10000x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S1x4096, .f32⟩
  | .hbm, ⟨20, _⟩ => ⟨S10000x4096, .f32⟩
  | .hbm, ⟨21, _⟩ => ⟨S10000x4096, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | .hbm, ⟨40, _⟩ => ⟨S128x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S10000x4096_S4096x10000_1_0 : S10000x4096.Transposes [1, 0] S4096x10000
  reducesTo_S10000x4096_S10000_d1 : S10000x4096.ReducesTo [1] S10000
  h_S_ : 0 < S_.numel
  bcast_S10000_S10000x1_0 : S10000.BroadcastsInDim S10000x1 (![0] : Fin 1 → Fin S10000x1.rank)
  bcast_S10000x1_S10000x4096_0_1 : S10000x1.BroadcastsInDim S10000x4096 (![0, 1] : Fin 2 → Fin S10000x4096.rank)
  reducesTo_S10000x4096_S4096_d0 : S10000x4096.ReducesTo [0] S4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S10000x4096_0_1 : S1x4096.BroadcastsInDim S10000x4096 (![0, 1] : Fin 2 → Fin S10000x4096.rank)
  bcast_S_S10000 : S_.BroadcastsInDim S10000 (![] : Fin 0 → Fin S10000.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  transposes_S128x128_S128x128_1_0 : S128x128.Transposes [1, 0] S128x128
  dot_S4096x10000_S10000x128_S4096x128_1_0_0_1_n_n_wf : DotDims.WF S4096x10000 S10000x128 S4096x128 [1] [0] [0] [1] [] []
  dot_S10000x4096_S4096x128_S10000x128_1_0_0_1_n_n_wf : DotDims.WF S10000x4096 S4096x128 S10000x128 [1] [0] [0] [1] [] []
  dot_S10000x128_S128x128_S10000x128_1_0_0_1_n_n_wf : DotDims.WF S10000x128 S128x128 S10000x128 [1] [0] [0] [1] [] []

variable [Facts₀]

def dot_S4096x10000_S10000x128_S4096x128_1_0_0_1_n_n : DotDims S4096x10000 S10000x128 S4096x128 where
  lhsContracting := [1]
  rhsContracting := [0]
  lhsNonContracting := [0]
  rhsNonContracting := [1]
  lhsBatch := []
  rhsBatch := []
  wf := dot_S4096x10000_S10000x128_S4096x128_1_0_0_1_n_n_wf
def dot_S10000x4096_S4096x128_S10000x128_1_0_0_1_n_n : DotDims S10000x4096 S4096x128 S10000x128 where
  lhsContracting := [1]
  rhsContracting := [0]
  lhsNonContracting := [0]
  rhsNonContracting := [1]
  lhsBatch := []
  rhsBatch := []
  wf := dot_S10000x4096_S4096x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BitsPassOne.lean ====
import proofs.«168818_g910533067196_cont_9to1c4b_380_8_alg».proof.Proof.Gen.Kernel.Launch
import proofs.«168818_g910533067196_cont_9to1c4b_380_8_alg».proof.Proof.Gen.Kernel.Skeleton
import proofs.«168818_g910533067196_cont_9to1c4b_380_8_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

/-!
# The first pass, point by point

The first pass walks the 25 row blocks of the incidence matrix (400 rows each). At block `t` it forms, from the
block `Bₜ` (400 × 4096) and the matching rows `xₜ` of the features (400 × 128), three partial results — the product
`xₜᵀ Bₜ`, the column sums of `Bₜ`, and the column sums of `Bₜ` weighted by its own row sums — and keeps their running
totals in three buffers that stay in place for the whole pass: stored at the first block, added to at every later
one, written back once after the last. What the three buffers hold after block `n` is `acc0 n`, by recursion on `n`.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the pass is entered
variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of the features at block `t`, and the block of the incidence matrix. -/
abbrev xblk0 (c : Dev nD) (t : Fin cfg0.N) : Vec F S400x128 .f32 := iblk0 V c 0 t
abbrev bblk0 (c : Dev nD) (t : Fin cfg0.N) : Vec F S400x4096 .f32 := iblk0 V c 1 t

/-- The three running totals after block `n`: set at the first block, the block's partial results added afterwards. -/
def acc0 (c : Dev nD) : (n : ℕ) → n < cfg0.N → Vec F S128x4096 .f32 × Vec F S1x4096 .f32 × Vec F S1x4096 .f32
  | 0, h => (k0_pay1 (bblk0 V c ⟨0, h⟩) (xblk0 V c ⟨0, h⟩), k0_pay2 (bblk0 V c ⟨0, h⟩), k0_pay3 (bblk0 V c ⟨0, h⟩))
  | n + 1, h =>
    (k0_pay4 (bblk0 V c ⟨n + 1, h⟩) (xblk0 V c ⟨n + 1, h⟩) (acc0 c n (Nat.lt_of_succ_lt h)).1,
     k0_pay5 (bblk0 V c ⟨n + 1, h⟩) (acc0 c n (Nat.lt_of_succ_lt h)).2.1,
     k0_pay6 (bblk0 V c ⟨n + 1, h⟩) (acc0 c n (Nat.lt_of_succ_lt h)).2.2)

theorem acc0_zero (c : Dev nD) (h : 0 < cfg0.N) :
    acc0 V c 0 h = (k0_pay1 (bblk0 V c ⟨0, h⟩) (xblk0 V c ⟨0, h⟩), k0_pay2 (bblk0 V c ⟨0, h⟩), k0_pay3 (bblk0 V c ⟨0, h⟩)) := rfl

theorem acc0_succ (c : Dev nD) (n : ℕ) (h : n + 1 < cfg0.N) :
    acc0 V c (n + 1) h =
      (k0_pay4 (bblk0 V c ⟨n + 1, h⟩) (xblk0 V c ⟨n + 1, h⟩) (acc0 V c n (Nat.lt_of_succ_lt h)).1,
       k0_pay5 (bblk0 V c ⟨n + 1, h⟩) (acc0 V c n (Nat.lt_of_succ_lt h)).2.1,
       k0_pay6 (bblk0 V c ⟨n + 1, h⟩) (acc0 V c n (Nat.lt_of_succ_lt h)).2.2) := rfl

/-- The proof data of the first pass on core `c`: the arrays as the pass finds them; after block `t` each input's
    buffer at its block and the three totals' buffers at `acc0 t`; nothing kept between blocks but the scoped rest. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2.1
    | ⟨4, _⟩ => (acc0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2.1 := by dsimp only [dat0]
theorem after0_4 (c : Dev nD) (t : Fin cfg0.N) : (dat0 V c).after 4 t = (acc0 V c t.val t.isLt).2.2 := by dsimp only [dat0]

/-! ## Which branch a block takes, and which buffers it writes

The first conditional of the body is taken at the first block only, the second at every later block; between them
they store into each of the three totals' buffers at every block, so none is ever left as it was found. -/

/-- The first branch is taken exactly at the first block. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second branch is taken exactly at the later blocks. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- Every buffer is written at every block: one of the two branches is always taken. -/
theorem live0 : ∀ (w : Fin cfg0.W) (i : grid0.Coords), cfg0.idle w i = false := by decide +kernel

/-- A block that is not the first comes after a block that is not the last (the pass has 25 blocks). -/
theorem pred_not_last (t : Fin cfg0.N) (ht : t.val ≠ 0) : ¬ (t.val - 1) % 25 = 24 := by
  have h := t.isLt
  have hN : cfg0.N = 25 := N_0
  omega

/-- So the totals' buffers are not written back between a later block and the one before it. -/
theorem kept0_2 (t : Fin cfg0.N) (ht : t.val ≠ 0) :
    (cfg0.win 2).flush ⟨t.val - 1, Nat.lt_of_le_of_lt (Nat.sub_le _ _) t.isLt⟩ = false :=
  Bool.eq_false_iff.mpr fun h => pred_not_last t ht ((flush0_2 _).mp h)
theorem kept0_3 (t : Fin cfg0.N) (ht : t.val ≠ 0) :
    (cfg0.win 3).flush ⟨t.val - 1, Nat.lt_of_le_of_lt (Nat.sub_le _ _) t.isLt⟩ = false :=
  Bool.eq_false_iff.mpr fun h => pred_not_last t ht ((flush0_3 _).mp h)
theorem kept0_4 (t : Fin cfg0.N) (ht : t.val ≠ 0) :
    (cfg0.win 4).flush ⟨t.val - 1, Nat.lt_of_le_of_lt (Nat.sub_le _ _) t.isLt⟩ = false :=
  Bool.eq_false_iff.mpr fun h => pred_not_last t ht ((flush0_4 _).mp h)

/-! ## What each buffer holds when a block begins -/

/-- The features' buffer holds the block's rows, and -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- the incidence matrix's buffer holds the block of the matrix. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At the first block the totals' buffers hold whatever they held. -/
theorem before0_2_first (c : Dev nD) (t : Fin cfg0.N) (ht : t.val = 0) (d) : (dat0 V c).before 2 t d = d :=
  (dat0 V c).before_out_reset 2 rfl t (.inl ht) d
theorem before0_3_first (c : Dev nD) (t : Fin cfg0.N) (ht : t.val = 0) (d) : (dat0 V c).before 3 t d = d :=
  (dat0 V c).before_out_reset 3 rfl t (.inl ht) d
theorem before0_4_first (c : Dev nD) (t : Fin cfg0.N) (ht : t.val = 0) (d) : (dat0 V c).before 4 t d = d :=
  (dat0 V c).before_out_reset 4 rfl t (.inl ht) d

/-- At a later block they hold the running totals after the block before. -/
theorem before0_2_later (c : Dev nD) (t : Fin cfg0.N) (ht : t.val ≠ 0) (d) :
    (dat0 V c).before 2 t d = (acc0 V c (t.val - 1) (Nat.lt_of_le_of_lt (Nat.sub_le _ _) t.isLt)).1 :=
  ((dat0 V c).before_out_kept 2 rfl t ht (kept0_2 t ht) (live0 2) (fun _ _ => rfl) d).trans (after0_2 V c _)
theorem before0_3_later (c : Dev nD) (t : Fin cfg0.N) (ht : t.val ≠ 0) (d) :
    (dat0 V c).before 3 t d = (acc0 V c (t.val - 1) (Nat.lt_of_le_of_lt (Nat.sub_le _ _) t.isLt)).2.1 :=
  ((dat0 V c).before_out_kept 3 rfl t ht (kept0_3 t ht) (live0 3) (fun _ _ => rfl) d).trans (after0_3 V c _)
theorem before0_4_later (c : Dev nD) (t : Fin cfg0.N) (ht : t.val ≠ 0) (d) :
    (dat0 V c).before 4 t d = (acc0 V c (t.val - 1) (Nat.lt_of_le_of_lt (Nat.sub_le _ _) t.isLt)).2.2 :=
  ((dat0 V c).before_out_kept 4 rfl t ht (kept0_4 t ht) (live0 4) (fun _ _ => rfl) d).trans (after0_4 V c _)

/-- The running totals at the first block, and -/
theorem acc0_first (c : Dev nD) (t : Fin cfg0.N) (ht : t.val = 0) :
    acc0 V c t.val t.isLt = (k0_pay1 (bblk0 V c t) (xblk0 V c t), k0_pay2 (bblk0 V c t), k0_pay3 (bblk0 V c t)) := by
  obtain ⟨n, hn⟩ := t
  obtain rfl : n = 0 := ht
  exact acc0_zero V c hn

/-- at a later block, over the totals after the block before. -/
theorem acc0_later (c : Dev nD) (t : Fin cfg0.N) (ht : t.val ≠ 0) :
    acc0 V c t.val t.isLt =
      (k0_pay4 (bblk0 V c t) (xblk0 V c t) (acc0 V c (t.val - 1) (Nat.lt_of_le_of_lt (Nat.sub_le _ _) t.isLt)).1,
       k0_pay5 (bblk0 V c t) (acc0 V c (t.val - 1) (Nat.lt_of_le_of_lt (Nat.sub_le _ _) t.isLt)).2.1,
       k0_pay6 (bblk0 V c t) (acc0 V c (t.val - 1) (Nat.lt_of_le_of_lt (Nat.sub_le _ _) t.isLt)).2.2) := by
  obtain ⟨n, hn⟩ := t
  cases n with
  | zero => exact absurd rfl ht
  | succ n => exact acc0_succ V c n hn

/-! ## The body on whole buffers

Every load and store of the body goes through the rectangle that is the whole buffer: such a load reads what the
buffer reads, and after such a store the buffer reads the stored value, whatever it held. -/

/-- Both offsets of a whole-buffer access are zero. -/
theorem zero2 : (![0, 0] : Fin 2 → ℕ) = fun _ => 0 :=
  funext fun a => match a with
    | ⟨0, _⟩ => rfl
    | ⟨1, _⟩ => rfl

/-- A load through the whole-buffer rectangle reads what the buffer reads. -/
theorem load_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb (v.read (Elt F) f))

/-- After one store through the whole-buffer rectangle the buffer reads the stored value. -/
theorem store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w :=
  (View.read_writes_eq_canon v f [⟨Rect.unit off S.size inb, w⟩]
      (fun y => ⟨_, List.mem_singleton_self _, View.mem_set_unit_zero h inb y⟩)).trans
    (View.canon_unit_zero h inb w)

set_option maxHeartbeats 1000000 in
/-- The body at the first block, on any whole buffers: the inputs' at `x1`, `x2`, the totals' at anything. It takes
    the first branch only, and leaves in the totals' buffers the block's three partial results. -/
theorem run_first (c : Dev nD) (E : Set ℕ) (i : grid0.Coords)
    (arg1 : Memref sig .tc .vmem S400x128 .f32) (harg1 : arg1.IsWhole) (arg2 : Memref sig .tc .vmem S400x4096 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole)
    (h1 : k0_cond1 i = 1#1) (h2 : ¬ k0_cond2 i = 1#1)
    (x1 : Vec F S400x128 .f32) (x2 : Vec F S400x4096 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (k0_pay1 x2 x1) ∗ owns (c : Thread nD τ) arg4 fullShare (k0_pay2 x2)
            ∗ owns (c : Thread nD τ) arg5 fullShare (k0_pay3 x2)) -∗ K ⟨⟩))
      ⊢ wp frame (wpE (defs₀ (F := F)) Variants.none c none) E (cc0__pass1 i arg1 harg1 arg2 harg2 arg3 harg3 arg4 harg4 arg5 harg5) K := by
  simp only [cc0__pass1_eq_skeleton]; unfold cc0__pass1_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [store_whole _ _ zero2, load_whole _ _ zero2, load_whole _ _ zero2]
  isplitl [H4]
  · iexists _; isplitr
    swap; · iexact H4
    ipureintro
    rw [store_whole _ _ zero2, load_whole _ _ zero2]
  iexists _; isplitr
  swap; · iexact H5
  ipureintro
  rw [store_whole _ _ zero2, load_whole _ _ zero2]

set_option maxHeartbeats 1000000 in
/-- The body at a later block, on any whole buffers: the inputs' at `x1`, `x2`, the totals' at `a3`, `a4`, `a5`. It
    takes the second branch only, and leaves in each total's buffer the total with the block's partial result added. -/
theorem run_later (c : Dev nD) (E : Set ℕ) (i : grid0.Coords)
    (arg1 : Memref sig .tc .vmem S400x128 .f32) (harg1 : arg1.IsWhole) (arg2 : Memref sig .tc .vmem S400x4096 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole)
    (h1 : ¬ k0_cond1 i = 1#1) (h2 : k0_cond2 i = 1#1)
    (x1 : Vec F S400x128 .f32) (x2 : Vec F S400x4096 .f32)
    (a3 : Vec F S128x4096 .f32) (a4 : Vec F S1x4096 .f32) (a5 : Vec F S1x4096 .f32) (K : PUnit → sProp 𝕄) :
    iprop(owns (c : Thread nD τ) arg1 fullShare x1 ∗ owns (c : Thread nD τ) arg2 fullShare x2
        ∗ owns (c : Thread nD τ) arg3 fullShare a3 ∗ owns (c : Thread nD τ) arg4 fullShare a4
        ∗ owns (c : Thread nD τ) arg5 fullShare a5
        ∗ (iprop(owns (c : Thread nD τ) arg1 fullShare x1 ∗ owns (c : Thread nD τ) arg2 fullShare x2
            ∗ owns (c : Thread nD τ) arg3 fullShare (k0_pay4 x2 x1 a3) ∗ owns (c : Thread nD τ) arg4 fullShare (k0_pay5 x2 a4)
            ∗ owns (c : Thread nD τ) arg5 fullShare (k0_pay6 x2 a5)) -∗ K ⟨⟩))
      ⊢ wp frame (wpE (defs₀ (F := F)) Variants.none c none) E (cc0__pass1 i arg1 harg1 arg2 harg2 arg3 harg3 arg4 harg4 arg5 harg5) K := by
  simp only [cc0__pass1_eq_skeleton]; unfold cc0__pass1_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [store_whole _ _ zero2, load_whole _ _ zero2, load_whole _ _ zero2, load_whole _ _ zero2]
  isplitl [H4]
  · iexists _; isplitr
    swap; · iexact H4
    ipureintro
    rw [store_whole _ _ zero2, load_whole _ _ zero2, load_whole _ _ zero2]
  iexists _; isplitr
  swap; · iexact H5
  ipureintro
  rw [store_whole _ _ zero2, load_whole _ _ zero2, load_whole _ _ zero2]

/-! ## The body at a block of the pass -/

/-- What the body is handed at block `t`: the five buffers at what they then hold, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- No buffer being left as found anywhere, each is handed back at what the body leaves in it. -/
theorem leaves0 (c : Dev nD) (w : Fin cfg0.W) (t : Fin cfg0.N) :
    (dat0 V c).leavesExact w t
      = owns (c : Thread nD τ) ((cfg0.win w).stage (cfg0.slots t w)) fullShare ((dat0 V c).after w t) := by
  unfold Dat.leavesExact; rw [live0 w (grid0.coords t)]

set_option maxHeartbeats 1000000 in
/-- The body at any block. The inputs' buffers hold the block's rows and the block of the matrix. At the first block
    the totals' buffers hold anything and the first branch stores the block's partial results; at a later block they
    hold the totals after the block before and the second branch adds the block's partial results: `acc0` either way. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    leaves0 V c 0 t, leaves0 V c 1 t, leaves0 V c 2 t, leaves0 V c 3 t, leaves0 V c 4 t,
    after0_0, after0_1, after0_2, after0_3, after0_4]
  by_cases hz : t.val = 0
  · simp only [before0_2_first V c t hz, before0_3_first V c t hz, before0_4_first V c t hz]
    rw [acc0_first V c t hz]
    iintro ⟨HΦ, Ho, ⟨%d0, H0⟩, ⟨%d1, H1⟩, ⟨%d2, H2⟩, ⟨%d3, H3⟩, ⟨%d4, H4⟩⟩
    iapply (run_first c Set.univ (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      ((first_iff t).mpr hz) (fun h => (later_iff t).mp h hz) (xblk0 V c t) (bblk0 V c t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_2_later V c t hz, before0_3_later V c t hz, before0_4_later V c t hz]
    rw [acc0_later V c t hz]
    iintro ⟨HΦ, Ho, ⟨%d0, H0⟩, ⟨%d1, H1⟩, ⟨%d2, H2⟩, ⟨%d3, H3⟩, ⟨%d4, H4⟩⟩
    iapply (run_later c Set.univ (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (fun h => hz ((first_iff t).mp h)) ((later_iff t).mpr hz) (xblk0 V c t) (bblk0 V c t)
      (acc0 V c (t.val - 1) (Nat.lt_of_le_of_lt (Nat.sub_le _ _) t.isLt)).1
      (acc0 V c (t.val - 1) (Nat.lt_of_le_of_lt (Nat.sub_le _ _) t.isLt)).2.1
      (acc0 V c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body of the first pass at every block: from the inputs' buffers at their blocks and the totals' buffers at
    what the block before left (anything, at the first), to the totals' buffers at `acc0`. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.BitsPassTwo.lean ====
import proofs.«168818_g910533067196_cont_9to1c4b_380_8_alg».proof.Proof.Gen.Kernel.Launch
import proofs.«168818_g910533067196_cont_9to1c4b_380_8_alg».proof.Proof.Gen.Kernel.Skeleton
import proofs.«168818_g910533067196_cont_9to1c4b_380_8_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

/-!
# The second pass, point by point

The second pass walks the same 25 row blocks. At the first block it builds, from the three totals of the first
pass (now whole input arrays), the message table with each column scaled by its edge's degree to the power `-1/2`,
and keeps it in a scratch buffer for the rest of the pass. At every block `t` it then forms the block's rows of the
result from the block `Bₜ` of the incidence matrix, that table, the rows `xₜ` of the features and the transposed
weight, and writes them back at once.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the pass is entered
variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the grid. -/
abbrev t0 : Fin cfg1.N := ⟨0, by decide⟩

/-- The scratch buffer of the pass. -/
abbrev scr : Memref sig .tc .vmem S128x4096 .bf16 := Memref.whole cc1_scratch0

/-- The scaled message table: what the first point stores in the scratch, from the weighted column sums (window 4),
    the column sums (window 3) and the message table (window 2). -/
def tbl1 (c : Dev nD) : Vec F S128x4096 .bf16 :=
  k1_pay1 (iblk1 V c 4 t0) (iblk1 V c 3 t0) (iblk1 V c 2 t0)

/-- The rows of the result at block `t`. -/
def out1 (c : Dev nD) (t : Fin cfg1.N) : Vec F S400x128 .f32 :=
  k1_pay2 (iblk1 V c 0 t) (tbl1 V c) (iblk1 V c 1 t) (iblk1 V c 5 t)

/-- The scoped buffers of the core that are neither a staging buffer of this pass nor its scratch (the first pass's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f))

/-- What the pass keeps between points: before the first point every scoped buffer it does not stage at anything;
    afterwards the scratch at the scaled message table, the others at anything; the generator register at some state. -/
def PhiS1 (c : Dev nD) : ℕ → sProp 𝕄
  | 0 => Pipeline.ΦA spec1 c
  | _ + 1 => iprop(others1 (F := F) c ∗ owns (c : Thread nD τ) scr fullShare (tbl1 V c) ∗ (∃ r, prngReg c r))

/-- The proof data of the second pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

/-! ## What the body finds in its input windows

None of the six input windows is ever written by the body, so what a window's buffer holds when the body runs is the
block of its array that a fetch at that point would bring, whether or not the pipeline fetched it there. -/

/-- Window 0's buffer holds the incidence block `Bₜ` when the body runs at any point: it is fetched afresh at every point. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]
  rw [(dat1 V c).before_in_eq_fetched 0 rfl (fun _ => rfl) (fun _ _ _ => rfl) hkeep t d]
  unfold Dat.fetched Dat.blockOf iblk1; rw [A_eq1]; rfl

/-- Window 1's buffer holds the feature rows `xₜ` when the body runs at any point: it is fetched afresh at every point. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]
  rw [(dat1 V c).before_in_eq_fetched 1 rfl (fun _ => rfl) (fun _ _ _ => rfl) hkeep t d]
  unfold Dat.fetched Dat.blockOf iblk1; rw [A_eq1]; rfl

/-- Window 2's buffer holds the whole message table when the body runs at any point: it is fetched at the first point only, and its block index never moves afterwards. -/
theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := fun s => by
    rw [after1_2]; unfold Dat.blockOf iblk1; rw [A_eq1]
  rw [(dat1 V c).before_in_eq_fetched 2 rfl (fun _ => rfl) (fun _ _ _ => rfl) hkeep t d]
  unfold Dat.fetched Dat.blockOf iblk1; rw [A_eq1]; rfl

/-- Window 3's buffer holds the whole row of column sums when the body runs at any point: it is fetched at the first point only, and its block index never moves afterwards. -/
theorem before1_3 (c : Dev nD) (t : Fin cfg1.N) (d) : (dat1 V c).before 3 t d = iblk1 V c 3 t := by
  have hkeep : ∀ s, (cfg1.win 3).cut (cfg1.grid.coords s) ((dat1 V c).after 3 s) = (dat1 V c).blockOf 3 s := fun s => by
    rw [after1_3]; unfold Dat.blockOf iblk1; rw [A_eq1]
  rw [(dat1 V c).before_in_eq_fetched 3 rfl (fun _ => rfl) (fun _ _ _ => rfl) hkeep t d]
  unfold Dat.fetched Dat.blockOf iblk1; rw [A_eq1]; rfl

/-- Window 4's buffer holds the whole row of weighted column sums when the body runs at any point: it is fetched at the first point only, and its block index never moves afterwards. -/
theorem before1_4 (c : Dev nD) (t : Fin cfg1.N) (d) : (dat1 V c).before 4 t d = iblk1 V c 4 t := by
  have hkeep : ∀ s, (cfg1.win 4).cut (cfg1.grid.coords s) ((dat1 V c).after 4 s) = (dat1 V c).blockOf 4 s := fun s => by
    rw [after1_4]; unfold Dat.blockOf iblk1; rw [A_eq1]
  rw [(dat1 V c).before_in_eq_fetched 4 rfl (fun _ => rfl) (fun _ _ _ => rfl) hkeep t d]
  unfold Dat.fetched Dat.blockOf iblk1; rw [A_eq1]; rfl

/-- Window 5's buffer holds the whole transposed weight when the body runs at any point: it is fetched at the first point only, and its block index never moves afterwards. -/
theorem before1_5 (c : Dev nD) (t : Fin cfg1.N) (d) : (dat1 V c).before 5 t d = iblk1 V c 5 t := by
  have hkeep : ∀ s, (cfg1.win 5).cut (cfg1.grid.coords s) ((dat1 V c).after 5 s) = (dat1 V c).blockOf 5 s := fun s => by
    rw [after1_5]; unfold Dat.blockOf iblk1; rw [A_eq1]
  rw [(dat1 V c).before_in_eq_fetched 5 rfl (fun _ => rfl) (fun _ _ _ => rfl) hkeep t d]
  unfold Dat.fetched Dat.blockOf iblk1; rw [A_eq1]; rfl

/-! ## The scratch among the scoped buffers -/

/-- The scoped buffers the pass does not stage are the first pass's staging buffers and the scratch: the scratch comes
    out as a memref owned at some contents. -/
theorem scoped_open (c : Dev nD) :
    (Pipeline.scopedRest (Ix := Unit) (Name := ℕ) (U := UR sig nD τ) (Lvl := ℕ) (Val := Elt F) spec1 c : sProp 𝕄)
      ⊢ iprop(others1 (F := F) c ∗ ∃ d, owns (c : Thread nD τ) scr fullShare d) := by
  rw [scopedRest1_eq]; unfold others1
  iintro ⟨H0, H1, H2, H3, H4, H5, H6, ⟨%f, HS⟩⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  · iexists f; rw [owns_whole]; iexact HS

/-- And goes back, whatever it holds: its contents are forgotten. -/
theorem scoped_close (c : Dev nD) (X : Vec F S128x4096 .bf16) :
    iprop(others1 (F := F) c ∗ owns (c : Thread nD τ) scr fullShare X)
      ⊢ (Pipeline.scopedRest (Ix := Unit) (Name := ℕ) (U := UR sig nD τ) (Lvl := ℕ) (Val := Elt F) spec1 c : sProp 𝕄) := by
  rw [scopedRest1_eq, owns_whole]; unfold others1
  iintro ⟨⟨H0, H1, H2, H3, H4, H5, H6⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X; iexact HS

/-! ## The invariant, point by point -/

theorem PhiS1_zero (c : Dev nD) (n : ℕ) (h : n = 0) : PhiS1 V c n = Pipeline.ΦA spec1 c := by
  subst h; rfl

theorem PhiS1_pos (c : Dev nD) (n : ℕ) (h : n ≠ 0) :
    PhiS1 V c n = iprop(others1 (F := F) c ∗ owns (c : Thread nD τ) scr fullShare (tbl1 V c) ∗ (∃ r, prngReg c r)) := by
  cases n with
  | zero => exact absurd rfl h
  | succ n => rfl

/-- The scaled message table is built from the three whole blocks as the first point finds them. -/
theorem tbl1_at (c : Dev nD) (t : Fin cfg1.N) (h : t.val = 0) :
    tbl1 V c = k1_pay1 (iblk1 V c 4 t) (iblk1 V c 3 t) (iblk1 V c 2 t) := by
  obtain rfl : t = t0 := Fin.ext h
  unfold tbl1; rfl

/-! ## The body's two runs

The body tests its grid coordinate once. Where the test holds it first loads the three totals of the first pass and
stores the scaled message table into the scratch; in every case it then loads the incidence block, the scratch, the
feature rows and the weight, and stores the block's rows of the result. Both runs are stated over whole memrefs at
named contents, so that what each buffer ends with is a plain term in those contents. -/

/-- The test the body makes on its grid coordinate: "this is the first block". -/
abbrev first1 (i : grid1.Coords) : Prop :=
  Scalar.cmpi .ne (Scalar.extui (Scalar.cmpi .eq (BitVec.ofNat 32 (i 0).val) 0#32)) 0#32 = 1#1

/-- It holds at the first point of the grid and at no other. -/
theorem first1_iff : ∀ t : Fin cfg1.N, first1 (grid1.coords t) ↔ t.val = 0 :=
  (by decide +kernel : ∀ t : Fin grid1.N, first1 (grid1.coords t) ↔ t.val = 0)

/-- Every access of the body is through the whole-shape rectangle at offsets zero. -/
theorem hz2 : (![0, 0] : Fin 2 → Nat) = fun _ => 0 := funext fun a => by fin_cases a <;> rfl

set_option maxHeartbeats 1000000 in
/-- At the first block: whatever the scratch and the output buffer held, the scratch ends at the scaled table built from
    the three totals `a4`, `a3`, `a2`, and the output buffer at the result rows computed from that table (the scratch
    read back after the store is what was stored); the six inputs are left as found. -/
theorem run1_first (c : Dev nD) (E : Set ℕ) (i : grid1.Coords) (hi : first1 i)
    (arg1 : Memref sig .tc .vmem S400x4096 .f32) (harg1 : arg1.IsWhole) (arg2 : Memref sig .tc .vmem S400x128 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S128x128 .f32) (harg6 : arg6.IsWhole)
    (arg7 : Memref sig .tc .vmem S400x128 .f32) (harg7 : arg7.IsWhole) (arg8 : Memref sig .tc .vmem S128x4096 .bf16) (harg8 : arg8.IsWhole)
    (x0 : Vec F S400x4096 .f32) (x1 : Vec F S400x128 .f32) (a2 : Vec F S128x4096 .f32) (a3 : Vec F S1x4096 .f32) (a4 : Vec F S1x4096 .f32) (a5 : Vec F S128x128 .f32)
    (K : PUnit → sProp 𝕄) :
    iprop(owns (c : Thread nD τ) arg1 fullShare x0 ∗ owns (c : Thread nD τ) arg2 fullShare x1 ∗ owns (c : Thread nD τ) arg3 fullShare a2
        ∗ owns (c : Thread nD τ) arg4 fullShare a3 ∗ owns (c : Thread nD τ) arg5 fullShare a4 ∗ owns (c : Thread nD τ) arg6 fullShare a5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare a2
            ∗ owns (c : Thread nD τ) arg4 fullShare a3 ∗ owns (c : Thread nD τ) arg5 fullShare a4 ∗ owns (c : Thread nD τ) arg6 fullShare a5
            ∗ owns (c : Thread nD τ) arg7 fullShare (k1_pay2 x0 (k1_pay1 a4 a3 a2) x1 a5)
            ∗ owns (c : Thread nD τ) arg8 fullShare (k1_pay1 a4 a3 a2)) -∗ K ⟨⟩))
      ⊢ wp frame (wpE (defs₀ (F := F)) Variants.none c none) E (cc1__pass2 i arg1 harg1 arg2 harg2 arg3 harg3 arg4 harg4 arg5 harg5 arg6 harg6 arg7 harg7 arg8 harg8) K := by
  simp only [cc1__pass2_eq_skeleton]; unfold cc1__pass2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_singleton_self _, View.mem_set_unit_zero hz2 inb_S400x128_S400x128_0_0 y⟩),
      View.canon_unit_zero hz2]
    simp only [View.readAt_eq_ld, harg1.read_unread, harg2.read_unread, harg3.read_unread, harg4.read_unread, harg5.read_unread, harg6.read_unread,
      View.ld_unit_zero (S := S400x4096) hz2, View.ld_unit_zero (S := S400x128) hz2, View.ld_unit_zero (S := S128x4096) hz2,
      View.ld_unit_zero (S := S1x4096) hz2, View.ld_unit_zero (S := S128x128) hz2,
      View.readCov_unit_zero (S := S128x4096) _ hz2]
  · iexists _; isplitr
    swap; · iexact H8
    ipureintro
    sl_unfold_words
    rw [View.read_writes_eq_canon _ _ _ (fun y => ⟨_, List.mem_singleton_self _, View.mem_set_unit_zero hz2 inb_S128x4096_S128x4096_0_0 y⟩),
      View.canon_unit_zero hz2]
    simp only [View.readAt_eq_ld, harg1.read_unread, harg2.read_unread, harg3.read_unread, harg4.read_unread, harg5.read_unread, harg6.read_unread,
      View.ld_unit_zero (S := S400x4096) hz2, View.ld_unit_zero (S := S400x128) hz2, View.ld_unit_zero (S := S128x4096) hz2,
      View.ld_unit_zero (S := S1x4096) hz2, View.ld_unit_zero (S := S128x128) hz2]

set_option maxHeartbeats 1000000 in
/-- At a later block: the scratch is only read. With the scratch at `s`, the output buffer ends at the result rows
    computed from `s`; the scratch and the six inputs are left as found. -/
theorem run1_later (c : Dev nD) (E : Set ℕ) (i : grid1.Coords) (hi : ¬first1 i)
    (arg1 : Memref sig .tc .vmem S400x4096 .f32) (harg1 : arg1.IsWhole) (arg2 : Memref sig .tc .vmem S400x128 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S128x128 .f32) (harg6 : arg6.IsWhole)
    (arg7 : Memref sig .tc .vmem S400x128 .f32) (harg7 : arg7.IsWhole) (arg8 : Memref sig .tc .vmem S128x4096 .bf16) (harg8 : arg8.IsWhole)
    (x0 : Vec F S400x4096 .f32) (x1 : Vec F S400x128 .f32) (a2 : Vec F S128x4096 .f32) (a3 : Vec F S1x4096 .f32) (a4 : Vec F S1x4096 .f32) (a5 : Vec F S128x128 .f32)
    (s : Vec F S128x4096 .bf16) (K : PUnit → sProp 𝕄) :
    iprop(owns (c : Thread nD τ) arg1 fullShare x0 ∗ owns (c : Thread nD τ) arg2 fullShare x1 ∗ owns (c : Thread nD τ) arg3 fullShare a2
        ∗ owns (c : Thread nD τ) arg4 fullShare a3 ∗ owns (c : Thread nD τ) arg5 fullShare a4 ∗ owns (c : Thread nD τ) arg6 fullShare a5
        ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare a2
            ∗ owns (c : Thread nD τ) arg4 fullShare a3 ∗ owns (c : Thread nD τ) arg5 fullShare a4 ∗ owns (c : Thread nD τ) arg6 fullShare a5
            ∗ owns (c : Thread nD τ) arg7 fullShare (k1_pay2 x0 s x1 a5)
            ∗ owns (c : Thread nD τ) arg8 fullShare s) -∗ K ⟨⟩))
      ⊢ wp frame (wpE (defs₀ (F := F)) Variants.none c none) E (cc1__pass2 i arg1 harg1 arg2 harg2 arg3 harg3 arg4 harg4 arg5 harg5 arg6 harg6 arg7 harg7 arg8 harg8) K := by
  simp only [cc1__pass2_eq_skeleton]; unfold cc1__pass2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_singleton_self _, View.mem_set_unit_zero hz2 inb_S400x128_S400x128_0_0 y⟩),
      View.canon_unit_zero hz2]
    simp only [View.readAt_eq_ld, harg1.read_unread, harg2.read_unread, harg3.read_unread, harg4.read_unread, harg5.read_unread, harg6.read_unread,
      View.ld_unit_zero (S := S400x4096) hz2, View.ld_unit_zero (S := S400x128) hz2, View.ld_unit_zero (S := S128x4096) hz2,
      View.ld_unit_zero (S := S1x4096) hz2, View.ld_unit_zero (S := S128x128) hz2, harg8.read_unread]
  · iexists _; isplitr; · ipureintro; exact harg8.read_unread _
    iexact H8

/-! ## The body obligation at a generic point -/

/-- What the body is handed at point `t`: the invariant, the core's tallies, each window's buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back: the invariant of the next point, the tallies, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point. The six input buffers hold their blocks. At the first point the scratch comes out of the
    scoped rest at anything and goes back at the scaled table, which is built from the three totals as that point finds
    them; at a later point the invariant hands the scratch over at the table and takes it back unchanged. Either way the
    output buffer ends at the block's rows of the result computed from the table. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.succ = PhiS1 V c (t.val + 1) from rfl, PhiS1_pos V c (t.val + 1) (Nat.succ_ne_zero _),
    show (dat1 V c).Φ t.castSucc = PhiS1 V c t.val from rfl,
    after1_0, after1_1, after1_2, after1_3, after1_4, after1_5, after1_6]
  unfold out1
  by_cases hz : t.val = 0
  · rw [PhiS1_zero V c t.val hz, tbl1_at V c t hz]
    unfold Pipeline.ΦA
    iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
    ihave Hs := (scoped_open c) $$ Hsc
    icases Hs with ⟨Hoth, HS⟩
    iapply (run1_first c Set.univ (grid1.coords t) ((first1_iff t).mpr hz) _ _ _ _ _ _ _ _ _ _ _ _ _ _ _ _
      (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS1_pos V c t.val hz]
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩⟩
    iapply (run1_later c Set.univ (grid1.coords t) (fun h => hz ((first1_iff t).mp h)) _ _ _ _ _ _ _ _ _ _ _ _ _ _ _ _
      (iblk1 V c 0 t) (iblk1 V c 1 t) (iblk1 V c 2 t) (iblk1 V c 3 t) (iblk1 V c 4 t) (iblk1 V c 5 t) (tbl1 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body of the second pass at every block. -/
theorem body_obligation1 (c : Dev nD) : BodyObligation (dat1 (F := F) V c) (defs₀ (F := F)) Variants.none () Set.univ := by
  intro t
  rw [bigSep_W1, bigSep_W1]
  exact sound_body1 V c t

/-- What the launch hands the pass is what it keeps before the first point. -/
theorem hin1 (c : Dev nD) : Pipeline.ΦA spec1 c ⊢ (dat1 V c).Φ 0 := by
  rw [show (dat1 V c).Φ 0 = PhiS1 V c 0 from rfl, PhiS1_zero V c 0 rfl]

/-- After the last point the pass gives the scoped rest and the generator register back, the table forgotten. -/
theorem hout1 (c : Dev nD) : (dat1 V c).Φ (Fin.last cfg1.N) ⊢ Pipeline.ΦA spec1 c := by
  rw [show (dat1 V c).Φ (Fin.last cfg1.N) = PhiS1 V c cfg1.N from rfl, PhiS1_pos V c cfg1.N (by decide)]
  unfold Pipeline.ΦA
  iintro ⟨Hoth, HS, Hg⟩
  isplitl [Hoth HS]
  · iapply (scoped_close c (tbl1 V c))
    isplitl [Hoth]; · iexact Hoth
    iexact HS
  iexact Hg

end Cert.Kernel.Hand

end
-- ==== Proof.BitsMainRun.lean ====
import proofs.«168818_g910533067196_cont_9to1c4b_380_8_alg».proof.Proof.BitsPassOne
import proofs.«168818_g910533067196_cont_9to1c4b_380_8_alg».proof.Proof.BitsPassTwo
import Idealize.ShloMosaic.Lib.Pipeline.RegionsLoop
import Idealize.ShloMosaic.Lib.Pipeline.FrameSuffix
import Idealize.ShloMosaic.Lib.Ring

/-!
# The whole program: first pass, one transposition on the host, second pass

The buffer contents at each boundary form a chain from the launch memory: the first pass leaves its three totals in
their arrays (`W2`), the host transposes the weight (`W3`), the second pass leaves the result in its array (`W4`).
Every weakly fair execution ends with every unscoped buffer at `W4`; the arguments are written by nobody, and the
result array holds what the second pass's write-backs leave.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- Core `c`'s buffers at launch (the first pass's entry). -/
abbrev W0 : Dev nD → Valuation τ sig (Elt F) := fun c b => m ((c : Dev nD), b)
/-- The same read at the TensorCore's references. -/
abbrev V1 : (c : Dev nD) → (b : Ref sig .tc) → Buf (Elt F) ((c : Thread nD τ).loc b) := fun c b => W0 m c b
/-- After the first pass: its arrays at what its write-backs leave, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host's transposition (the second pass's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second pass. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The host's one operation writes the transposed weight's buffer and nothing else. -/
theorem W3_of_ne (c : Dev nD) (b : Ref sig .tc) (hb : b ≠ main_v1) :
    W3 m c (Proc.devRef .tc b) = W2 m c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 1).trans (((dat1 (V3 m) c).arrAt_in 1 rfl _).trans (A_eq1 (V3 m) c 1))
    _ = W2 m c (Proc.devRef .tc main_arg0) := W3_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat1 (V3 m) c).arrAt_in 0 rfl _).trans (A_eq1 (V3 m) c 0))
    _ = W2 m c (Proc.devRef .tc main_arg1) := W3_of_ne m c main_arg1 (by decide)
    _ = W0 m c (Proc.devRef .tc main_arg1) := (W2_arr m c 1).trans (((dat0 (V1 m) c).arrAt_in 1 rfl _).trans (A_eq0 (V1 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W0 m c (Proc.devRef .tc main_arg2) := W2_of_ne m c main_arg2 (by decide)
    _ = m ((c : Thread nD τ).loc main_arg2) := rfl

/-- The result array ends at what the second pass's write-backs leave. -/
theorem W4_main_v2 (c : Dev nD) : W4 m c (Proc.devRef .tc main_v2) = (dat1 (V3 m) c).arrAt 6 cfg1.N :=
  W4_arr m c 6

/-! ## The proof data family and the thread state -/

abbrev adm : (p : Fin 2) → (pcfgs (F := F) p).Adm := fun p => (cfgs p).toPCfg_adm
/-- Both passes' proof data, each at its pass's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The passes as segments -/

set_option backward.isDefEq.respectTransparency.types false in
/-- The first pass over the thread state: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V3 m) c
    iintro ⟨Hp, -, Hr⟩
    iapply h
    unfold Pipeline.ΦA
    isplitl [Hr]; · iexact Hr
    iexact Hp
  hout c := by
    rw [Pipeline.ownSems0_none]
    have h : (pdats m 1 c).Φ (Fin.last _) ⊢ Pipeline.ΦA spec1 c := hout1 (V3 m) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in
/-- Every weakly fair execution from memory `m` with zero counters terminates, nothing faulting, with every unscoped
    buffer of every core at `W4`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_main m ρ)

/-- The run with the result named: the result array ends at what the second pass's write-backs leave, the arguments
    as launched. -/
theorem run_value : θ_run defs (onTc (τ := τ) (main (F := F))) ⟨m, fun _ => 0, ρ⟩ (fun r => ∀ c : Dev nD,
      r.2.mem ((c.tc : Thread nD τ).loc main_v2) = (dat1 (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W4_main_v2 m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_main m ρ)

end Cert.Kernel.Hand

end
-- ==== Proof.PassOne.lean ====
import proofs.«168818_g910533067196_cont_9to1c4b_380_8_alg».proof.Proof.Gen.KernelIdeal.Launch
import proofs.«168818_g910533067196_cont_9to1c4b_380_8_alg».proof.Proof.Gen.KernelIdeal.Skeleton
import proofs.«168818_g910533067196_cont_9to1c4b_380_8_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

/-!
# The first pass, point by point

The first pass walks the 25 row blocks of the incidence matrix (400 rows each). At block `t` it forms, from the
block `Bₜ` (400 × 4096) and the matching rows `xₜ` of the features (400 × 128), three partial results — the product
`xₜᵀ Bₜ`, the column sums of `Bₜ`, and the column sums of `Bₜ` weighted by its own row sums — and keeps their running
totals in three buffers that stay in place for the whole pass: stored at the first block, added to at every later
one, written back once after the last. What the three buffers hold after block `n` is `acc0 n`, by recursion on `n`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the pass is entered
variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of the features at block `t`, and the block of the incidence matrix. -/
abbrev xblk0 (c : Dev nD) (t : Fin cfg0.N) : Vec F S400x128 .f32 := iblk0 V c 0 t
abbrev bblk0 (c : Dev nD) (t : Fin cfg0.N) : Vec F S400x4096 .f32 := iblk0 V c 1 t

/-- The three running totals after block `n`: set at the first block, the block's partial results added afterwards. -/
def acc0 (c : Dev nD) : (n : ℕ) → n < cfg0.N → Vec F S128x4096 .f32 × Vec F S1x4096 .f32 × Vec F S1x4096 .f32
  | 0, h => (k0_pay1 (bblk0 V c ⟨0, h⟩) (xblk0 V c ⟨0, h⟩), k0_pay2 (bblk0 V c ⟨0, h⟩), k0_pay3 (bblk0 V c ⟨0, h⟩))
  | n + 1, h =>
    (k0_pay4 (bblk0 V c ⟨n + 1, h⟩) (xblk0 V c ⟨n + 1, h⟩) (acc0 c n (Nat.lt_of_succ_lt h)).1,
     k0_pay5 (bblk0 V c ⟨n + 1, h⟩) (acc0 c n (Nat.lt_of_succ_lt h)).2.1,
     k0_pay6 (bblk0 V c ⟨n + 1, h⟩) (acc0 c n (Nat.lt_of_succ_lt h)).2.2)

theorem acc0_zero (c : Dev nD) (h : 0 < cfg0.N) :
    acc0 V c 0 h = (k0_pay1 (bblk0 V c ⟨0, h⟩) (xblk0 V c ⟨0, h⟩), k0_pay2 (bblk0 V c ⟨0, h⟩), k0_pay3 (bblk0 V c ⟨0, h⟩)) := rfl

theorem acc0_succ (c : Dev nD) (n : ℕ) (h : n + 1 < cfg0.N) :
    acc0 V c (n + 1) h =
      (k0_pay4 (bblk0 V c ⟨n + 1, h⟩) (xblk0 V c ⟨n + 1, h⟩) (acc0 V c n (Nat.lt_of_succ_lt h)).1,
       k0_pay5 (bblk0 V c ⟨n + 1, h⟩) (acc0 V c n (Nat.lt_of_succ_lt h)).2.1,
       k0_pay6 (bblk0 V c ⟨n + 1, h⟩) (acc0 V c n (Nat.lt_of_succ_lt h)).2.2) := rfl

/-- The proof data of the first pass on core `c`: the arrays as the pass finds them; after block `t` each input's
    buffer at its block and the three totals' buffers at `acc0 t`; nothing kept between blocks but the scoped rest. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2.1
    | ⟨4, _⟩ => (acc0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2.1 := by dsimp only [dat0]
theorem after0_4 (c : Dev nD) (t : Fin cfg0.N) : (dat0 V c).after 4 t = (acc0 V c t.val t.isLt).2.2 := by dsimp only [dat0]

/-! ## Which branch a block takes, and which buffers it writes

The first conditional of the body is taken at the first block only, the second at every later block; between them
they store into each of the three totals' buffers at every block, so none is ever left as it was found. -/

/-- The first branch is taken exactly at the first block. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second branch is taken exactly at the later blocks. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- Every buffer is written at every block: one of the two branches is always taken. -/
theorem live0 : ∀ (w : Fin cfg0.W) (i : grid0.Coords), cfg0.idle w i = false := by decide +kernel

/-- A block that is not the first comes after a block that is not the last (the pass has 25 blocks). -/
theorem pred_not_last (t : Fin cfg0.N) (ht : t.val ≠ 0) : ¬ (t.val - 1) % 25 = 24 := by
  have h := t.isLt
  have hN : cfg0.N = 25 := N_0
  omega

/-- So the totals' buffers are not written back between a later block and the one before it. -/
theorem kept0_2 (t : Fin cfg0.N) (ht : t.val ≠ 0) :
    (cfg0.win 2).flush ⟨t.val - 1, Nat.lt_of_le_of_lt (Nat.sub_le _ _) t.isLt⟩ = false :=
  Bool.eq_false_iff.mpr fun h => pred_not_last t ht ((flush0_2 _).mp h)
theorem kept0_3 (t : Fin cfg0.N) (ht : t.val ≠ 0) :
    (cfg0.win 3).flush ⟨t.val - 1, Nat.lt_of_le_of_lt (Nat.sub_le _ _) t.isLt⟩ = false :=
  Bool.eq_false_iff.mpr fun h => pred_not_last t ht ((flush0_3 _).mp h)
theorem kept0_4 (t : Fin cfg0.N) (ht : t.val ≠ 0) :
    (cfg0.win 4).flush ⟨t.val - 1, Nat.lt_of_le_of_lt (Nat.sub_le _ _) t.isLt⟩ = false :=
  Bool.eq_false_iff.mpr fun h => pred_not_last t ht ((flush0_4 _).mp h)

/-! ## What each buffer holds when a block begins -/

/-- The features' buffer holds the block's rows, and -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- the incidence matrix's buffer holds the block of the matrix. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At the first block the totals' buffers hold whatever they held. -/
theorem before0_2_first (c : Dev nD) (t : Fin cfg0.N) (ht : t.val = 0) (d) : (dat0 V c).before 2 t d = d :=
  (dat0 V c).before_out_reset 2 rfl t (.inl ht) d
theorem before0_3_first (c : Dev nD) (t : Fin cfg0.N) (ht : t.val = 0) (d) : (dat0 V c).before 3 t d = d :=
  (dat0 V c).before_out_reset 3 rfl t (.inl ht) d
theorem before0_4_first (c : Dev nD) (t : Fin cfg0.N) (ht : t.val = 0) (d) : (dat0 V c).before 4 t d = d :=
  (dat0 V c).before_out_reset 4 rfl t (.inl ht) d

/-- At a later block they hold the running totals after the block before. -/
theorem before0_2_later (c : Dev nD) (t : Fin cfg0.N) (ht : t.val ≠ 0) (d) :
    (dat0 V c).before 2 t d = (acc0 V c (t.val - 1) (Nat.lt_of_le_of_lt (Nat.sub_le _ _) t.isLt)).1 :=
  ((dat0 V c).before_out_kept 2 rfl t ht (kept0_2 t ht) (live0 2) (fun _ _ => rfl) d).trans (after0_2 V c _)
theorem before0_3_later (c : Dev nD) (t : Fin cfg0.N) (ht : t.val ≠ 0) (d) :
    (dat0 V c).before 3 t d = (acc0 V c (t.val - 1) (Nat.lt_of_le_of_lt (Nat.sub_le _ _) t.isLt)).2.1 :=
  ((dat0 V c).before_out_kept 3 rfl t ht (kept0_3 t ht) (live0 3) (fun _ _ => rfl) d).trans (after0_3 V c _)
theorem before0_4_later (c : Dev nD) (t : Fin cfg0.N) (ht : t.val ≠ 0) (d) :
    (dat0 V c).before 4 t d = (acc0 V c (t.val - 1) (Nat.lt_of_le_of_lt (Nat.sub_le _ _) t.isLt)).2.2 :=
  ((dat0 V c).before_out_kept 4 rfl t ht (kept0_4 t ht) (live0 4) (fun _ _ => rfl) d).trans (after0_4 V c _)

/-- The running totals at the first block, and -/
theorem acc0_first (c : Dev nD) (t : Fin cfg0.N) (ht : t.val = 0) :
    acc0 V c t.val t.isLt = (k0_pay1 (bblk0 V c t) (xblk0 V c t), k0_pay2 (bblk0 V c t), k0_pay3 (bblk0 V c t)) := by
  obtain ⟨n, hn⟩ := t
  obtain rfl : n = 0 := ht
  exact acc0_zero V c hn

/-- at a later block, over the totals after the block before. -/
theorem acc0_later (c : Dev nD) (t : Fin cfg0.N) (ht : t.val ≠ 0) :
    acc0 V c t.val t.isLt =
      (k0_pay4 (bblk0 V c t) (xblk0 V c t) (acc0 V c (t.val - 1) (Nat.lt_of_le_of_lt (Nat.sub_le _ _) t.isLt)).1,
       k0_pay5 (bblk0 V c t) (acc0 V c (t.val - 1) (Nat.lt_of_le_of_lt (Nat.sub_le _ _) t.isLt)).2.1,
       k0_pay6 (bblk0 V c t) (acc0 V c (t.val - 1) (Nat.lt_of_le_of_lt (Nat.sub_le _ _) t.isLt)).2.2) := by
  obtain ⟨n, hn⟩ := t
  cases n with
  | zero => exact absurd rfl ht
  | succ n => exact acc0_succ V c n hn

/-! ## The body on whole buffers

Every load and store of the body goes through the rectangle that is the whole buffer: such a load reads what the
buffer reads, and after such a store the buffer reads the stored value, whatever it held. -/

/-- Both offsets of a whole-buffer access are zero. -/
theorem zero2 : (![0, 0] : Fin 2 → ℕ) = fun _ => 0 :=
  funext fun a => match a with
    | ⟨0, _⟩ => rfl
    | ⟨1, _⟩ => rfl

/-- A load through the whole-buffer rectangle reads what the buffer reads. -/
theorem load_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb (v.read (Elt F) f))

/-- After one store through the whole-buffer rectangle the buffer reads the stored value. -/
theorem store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w :=
  (View.read_writes_eq_canon v f [⟨Rect.unit off S.size inb, w⟩]
      (fun y => ⟨_, List.mem_singleton_self _, View.mem_set_unit_zero h inb y⟩)).trans
    (View.canon_unit_zero h inb w)

set_option maxHeartbeats 1000000 in
/-- The body at the first block, on any whole buffers: the inputs' at `x1`, `x2`, the totals' at anything. It takes
    the first branch only, and leaves in the totals' buffers the block's three partial results. -/
theorem run_first (c : Dev nD) (E : Set ℕ) (i : grid0.Coords)
    (arg1 : Memref sig .tc .vmem S400x128 .f32) (harg1 : arg1.IsWhole) (arg2 : Memref sig .tc .vmem S400x4096 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole)
    (h1 : k0_cond1 i = 1#1) (h2 : ¬ k0_cond2 i = 1#1)
    (x1 : Vec F S400x128 .f32) (x2 : Vec F S400x4096 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (k0_pay1 x2 x1) ∗ owns (c : Thread nD τ) arg4 fullShare (k0_pay2 x2)
            ∗ owns (c : Thread nD τ) arg5 fullShare (k0_pay3 x2)) -∗ K ⟨⟩))
      ⊢ wp frame (wpE (defs₀ (F := F)) Variants.none c none) E (cc0__pass1 i arg1 harg1 arg2 harg2 arg3 harg3 arg4 harg4 arg5 harg5) K := by
  simp only [cc0__pass1_eq_skeleton]; unfold cc0__pass1_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [store_whole _ _ zero2, load_whole _ _ zero2, load_whole _ _ zero2]
  isplitl [H4]
  · iexists _; isplitr
    swap; · iexact H4
    ipureintro
    rw [store_whole _ _ zero2, load_whole _ _ zero2]
  iexists _; isplitr
  swap; · iexact H5
  ipureintro
  rw [store_whole _ _ zero2, load_whole _ _ zero2]

set_option maxHeartbeats 1000000 in
/-- The body at a later block, on any whole buffers: the inputs' at `x1`, `x2`, the totals' at `a3`, `a4`, `a5`. It
    takes the second branch only, and leaves in each total's buffer the total with the block's partial result added. -/
theorem run_later (c : Dev nD) (E : Set ℕ) (i : grid0.Coords)
    (arg1 : Memref sig .tc .vmem S400x128 .f32) (harg1 : arg1.IsWhole) (arg2 : Memref sig .tc .vmem S400x4096 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole)
    (h1 : ¬ k0_cond1 i = 1#1) (h2 : k0_cond2 i = 1#1)
    (x1 : Vec F S400x128 .f32) (x2 : Vec F S400x4096 .f32)
    (a3 : Vec F S128x4096 .f32) (a4 : Vec F S1x4096 .f32) (a5 : Vec F S1x4096 .f32) (K : PUnit → sProp 𝕄) :
    iprop(owns (c : Thread nD τ) arg1 fullShare x1 ∗ owns (c : Thread nD τ) arg2 fullShare x2
        ∗ owns (c : Thread nD τ) arg3 fullShare a3 ∗ owns (c : Thread nD τ) arg4 fullShare a4
        ∗ owns (c : Thread nD τ) arg5 fullShare a5
        ∗ (iprop(owns (c : Thread nD τ) arg1 fullShare x1 ∗ owns (c : Thread nD τ) arg2 fullShare x2
            ∗ owns (c : Thread nD τ) arg3 fullShare (k0_pay4 x2 x1 a3) ∗ owns (c : Thread nD τ) arg4 fullShare (k0_pay5 x2 a4)
            ∗ owns (c : Thread nD τ) arg5 fullShare (k0_pay6 x2 a5)) -∗ K ⟨⟩))
      ⊢ wp frame (wpE (defs₀ (F := F)) Variants.none c none) E (cc0__pass1 i arg1 harg1 arg2 harg2 arg3 harg3 arg4 harg4 arg5 harg5) K := by
  simp only [cc0__pass1_eq_skeleton]; unfold cc0__pass1_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [store_whole _ _ zero2, load_whole _ _ zero2, load_whole _ _ zero2, load_whole _ _ zero2]
  isplitl [H4]
  · iexists _; isplitr
    swap; · iexact H4
    ipureintro
    rw [store_whole _ _ zero2, load_whole _ _ zero2, load_whole _ _ zero2]
  iexists _; isplitr
  swap; · iexact H5
  ipureintro
  rw [store_whole _ _ zero2, load_whole _ _ zero2, load_whole _ _ zero2]

/-! ## The body at a block of the pass -/

/-- What the body is handed at block `t`: the five buffers at what they then hold, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- No buffer being left as found anywhere, each is handed back at what the body leaves in it. -/
theorem leaves0 (c : Dev nD) (w : Fin cfg0.W) (t : Fin cfg0.N) :
    (dat0 V c).leavesExact w t
      = owns (c : Thread nD τ) ((cfg0.win w).stage (cfg0.slots t w)) fullShare ((dat0 V c).after w t) := by
  unfold Dat.leavesExact; rw [live0 w (grid0.coords t)]

set_option maxHeartbeats 1000000 in
/-- The body at any block. The inputs' buffers hold the block's rows and the block of the matrix. At the first block
    the totals' buffers hold anything and the first branch stores the block's partial results; at a later block they
    hold the totals after the block before and the second branch adds the block's partial results: `acc0` either way. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    leaves0 V c 0 t, leaves0 V c 1 t, leaves0 V c 2 t, leaves0 V c 3 t, leaves0 V c 4 t,
    after0_0, after0_1, after0_2, after0_3, after0_4]
  by_cases hz : t.val = 0
  · simp only [before0_2_first V c t hz, before0_3_first V c t hz, before0_4_first V c t hz]
    rw [acc0_first V c t hz]
    iintro ⟨HΦ, Ho, ⟨%d0, H0⟩, ⟨%d1, H1⟩, ⟨%d2, H2⟩, ⟨%d3, H3⟩, ⟨%d4, H4⟩⟩
    iapply (run_first c Set.univ (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      ((first_iff t).mpr hz) (fun h => (later_iff t).mp h hz) (xblk0 V c t) (bblk0 V c t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_2_later V c t hz, before0_3_later V c t hz, before0_4_later V c t hz]
    rw [acc0_later V c t hz]
    iintro ⟨HΦ, Ho, ⟨%d0, H0⟩, ⟨%d1, H1⟩, ⟨%d2, H2⟩, ⟨%d3, H3⟩, ⟨%d4, H4⟩⟩
    iapply (run_later c Set.univ (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (fun h => hz ((first_iff t).mp h)) ((later_iff t).mpr hz) (xblk0 V c t) (bblk0 V c t)
      (acc0 V c (t.val - 1) (Nat.lt_of_le_of_lt (Nat.sub_le _ _) t.isLt)).1
      (acc0 V c (t.val - 1) (Nat.lt_of_le_of_lt (Nat.sub_le _ _) t.isLt)).2.1
      (acc0 V c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body of the first pass at every block: from the inputs' buffers at their blocks and the totals' buffers at
    what the block before left (anything, at the first), to the totals' buffers at `acc0`. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.PassTwo.lean ====
import proofs.«168818_g910533067196_cont_9to1c4b_380_8_alg».proof.Proof.Gen.KernelIdeal.Launch
import proofs.«168818_g910533067196_cont_9to1c4b_380_8_alg».proof.Proof.Gen.KernelIdeal.Skeleton
import proofs.«168818_g910533067196_cont_9to1c4b_380_8_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

/-!
# The second pass, point by point

The second pass walks the same 25 row blocks. At the first block it builds, from the three totals of the first
pass (now whole input arrays), the message table with each column scaled by its edge's degree to the power `-1/2`,
and keeps it in a scratch buffer for the rest of the pass. At every block `t` it then forms the block's rows of the
result from the block `Bₜ` of the incidence matrix, that table, the rows `xₜ` of the features and the transposed
weight, and writes them back at once.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the pass is entered
variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the grid. -/
abbrev t0 : Fin cfg1.N := ⟨0, by decide⟩

/-- The scratch buffer of the pass. -/
abbrev scr : Memref sig .tc .vmem S128x4096 .bf16 := Memref.whole cc1_scratch0

/-- The scaled message table: what the first point stores in the scratch, from the weighted column sums (window 4),
    the column sums (window 3) and the message table (window 2). -/
def tbl1 (c : Dev nD) : Vec F S128x4096 .bf16 :=
  k1_pay1 (iblk1 V c 4 t0) (iblk1 V c 3 t0) (iblk1 V c 2 t0)

/-- The rows of the result at block `t`. -/
def out1 (c : Dev nD) (t : Fin cfg1.N) : Vec F S400x128 .f32 :=
  k1_pay2 (iblk1 V c 0 t) (tbl1 V c) (iblk1 V c 1 t) (iblk1 V c 5 t)

/-- The scoped buffers of the core that are neither a staging buffer of this pass nor its scratch (the first pass's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f))

/-- What the pass keeps between points: before the first point every scoped buffer it does not stage at anything;
    afterwards the scratch at the scaled message table, the others at anything; the generator register at some state. -/
def PhiS1 (c : Dev nD) : ℕ → sProp 𝕄
  | 0 => Pipeline.ΦA spec1 c
  | _ + 1 => iprop(others1 (F := F) c ∗ owns (c : Thread nD τ) scr fullShare (tbl1 V c) ∗ (∃ r, prngReg c r))

/-- The proof data of the second pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

/-! ## What the body finds in its input windows

None of the six input windows is ever written by the body, so what a window's buffer holds when the body runs is the
block of its array that a fetch at that point would bring, whether or not the pipeline fetched it there. -/

/-- Window 0's buffer holds the incidence block `Bₜ` when the body runs at any point: it is fetched afresh at every point. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]
  rw [(dat1 V c).before_in_eq_fetched 0 rfl (fun _ => rfl) (fun _ _ _ => rfl) hkeep t d]
  unfold Dat.fetched Dat.blockOf iblk1; rw [A_eq1]; rfl

/-- Window 1's buffer holds the feature rows `xₜ` when the body runs at any point: it is fetched afresh at every point. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]
  rw [(dat1 V c).before_in_eq_fetched 1 rfl (fun _ => rfl) (fun _ _ _ => rfl) hkeep t d]
  unfold Dat.fetched Dat.blockOf iblk1; rw [A_eq1]; rfl

/-- Window 2's buffer holds the whole message table when the body runs at any point: it is fetched at the first point only, and its block index never moves afterwards. -/
theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := fun s => by
    rw [after1_2]; unfold Dat.blockOf iblk1; rw [A_eq1]
  rw [(dat1 V c).before_in_eq_fetched 2 rfl (fun _ => rfl) (fun _ _ _ => rfl) hkeep t d]
  unfold Dat.fetched Dat.blockOf iblk1; rw [A_eq1]; rfl

/-- Window 3's buffer holds the whole row of column sums when the body runs at any point: it is fetched at the first point only, and its block index never moves afterwards. -/
theorem before1_3 (c : Dev nD) (t : Fin cfg1.N) (d) : (dat1 V c).before 3 t d = iblk1 V c 3 t := by
  have hkeep : ∀ s, (cfg1.win 3).cut (cfg1.grid.coords s) ((dat1 V c).after 3 s) = (dat1 V c).blockOf 3 s := fun s => by
    rw [after1_3]; unfold Dat.blockOf iblk1; rw [A_eq1]
  rw [(dat1 V c).before_in_eq_fetched 3 rfl (fun _ => rfl) (fun _ _ _ => rfl) hkeep t d]
  unfold Dat.fetched Dat.blockOf iblk1; rw [A_eq1]; rfl

/-- Window 4's buffer holds the whole row of weighted column sums when the body runs at any point: it is fetched at the first point only, and its block index never moves afterwards. -/
theorem before1_4 (c : Dev nD) (t : Fin cfg1.N) (d) : (dat1 V c).before 4 t d = iblk1 V c 4 t := by
  have hkeep : ∀ s, (cfg1.win 4).cut (cfg1.grid.coords s) ((dat1 V c).after 4 s) = (dat1 V c).blockOf 4 s := fun s => by
    rw [after1_4]; unfold Dat.blockOf iblk1; rw [A_eq1]
  rw [(dat1 V c).before_in_eq_fetched 4 rfl (fun _ => rfl) (fun _ _ _ => rfl) hkeep t d]
  unfold Dat.fetched Dat.blockOf iblk1; rw [A_eq1]; rfl

/-- Window 5's buffer holds the whole transposed weight when the body runs at any point: it is fetched at the first point only, and its block index never moves afterwards. -/
theorem before1_5 (c : Dev nD) (t : Fin cfg1.N) (d) : (dat1 V c).before 5 t d = iblk1 V c 5 t := by
  have hkeep : ∀ s, (cfg1.win 5).cut (cfg1.grid.coords s) ((dat1 V c).after 5 s) = (dat1 V c).blockOf 5 s := fun s => by
    rw [after1_5]; unfold Dat.blockOf iblk1; rw [A_eq1]
  rw [(dat1 V c).before_in_eq_fetched 5 rfl (fun _ => rfl) (fun _ _ _ => rfl) hkeep t d]
  unfold Dat.fetched Dat.blockOf iblk1; rw [A_eq1]; rfl

/-! ## The scratch among the scoped buffers -/

/-- The scoped buffers the pass does not stage are the first pass's staging buffers and the scratch: the scratch comes
    out as a memref owned at some contents. -/
theorem scoped_open (c : Dev nD) :
    (Pipeline.scopedRest (Ix := Unit) (Name := ℕ) (U := UR sig nD τ) (Lvl := ℕ) (Val := Elt F) spec1 c : sProp 𝕄)
      ⊢ iprop(others1 (F := F) c ∗ ∃ d, owns (c : Thread nD τ) scr fullShare d) := by
  rw [scopedRest1_eq]; unfold others1
  iintro ⟨H0, H1, H2, H3, H4, H5, H6, ⟨%f, HS⟩⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  · iexists f; rw [owns_whole]; iexact HS

/-- And goes back, whatever it holds: its contents are forgotten. -/
theorem scoped_close (c : Dev nD) (X : Vec F S128x4096 .bf16) :
    iprop(others1 (F := F) c ∗ owns (c : Thread nD τ) scr fullShare X)
      ⊢ (Pipeline.scopedRest (Ix := Unit) (Name := ℕ) (U := UR sig nD τ) (Lvl := ℕ) (Val := Elt F) spec1 c : sProp 𝕄) := by
  rw [scopedRest1_eq, owns_whole]; unfold others1
  iintro ⟨⟨H0, H1, H2, H3, H4, H5, H6⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X; iexact HS

/-! ## The invariant, point by point -/

theorem PhiS1_zero (c : Dev nD) (n : ℕ) (h : n = 0) : PhiS1 V c n = Pipeline.ΦA spec1 c := by
  subst h; rfl

theorem PhiS1_pos (c : Dev nD) (n : ℕ) (h : n ≠ 0) :
    PhiS1 V c n = iprop(others1 (F := F) c ∗ owns (c : Thread nD τ) scr fullShare (tbl1 V c) ∗ (∃ r, prngReg c r)) := by
  cases n with
  | zero => exact absurd rfl h
  | succ n => rfl

/-- The scaled message table is built from the three whole blocks as the first point finds them. -/
theorem tbl1_at (c : Dev nD) (t : Fin cfg1.N) (h : t.val = 0) :
    tbl1 V c = k1_pay1 (iblk1 V c 4 t) (iblk1 V c 3 t) (iblk1 V c 2 t) := by
  obtain rfl : t = t0 := Fin.ext h
  unfold tbl1; rfl

/-! ## The body's two runs

The body tests its grid coordinate once. Where the test holds it first loads the three totals of the first pass and
stores the scaled message table into the scratch; in every case it then loads the incidence block, the scratch, the
feature rows and the weight, and stores the block's rows of the result. Both runs are stated over whole memrefs at
named contents, so that what each buffer ends with is a plain term in those contents. -/

/-- The test the body makes on its grid coordinate: "this is the first block". -/
abbrev first1 (i : grid1.Coords) : Prop :=
  Scalar.cmpi .ne (Scalar.extui (Scalar.cmpi .eq (BitVec.ofNat 32 (i 0).val) 0#32)) 0#32 = 1#1

/-- It holds at the first point of the grid and at no other. -/
theorem first1_iff : ∀ t : Fin cfg1.N, first1 (grid1.coords t) ↔ t.val = 0 :=
  (by decide +kernel : ∀ t : Fin grid1.N, first1 (grid1.coords t) ↔ t.val = 0)

/-- Every access of the body is through the whole-shape rectangle at offsets zero. -/
theorem hz2 : (![0, 0] : Fin 2 → Nat) = fun _ => 0 := funext fun a => by fin_cases a <;> rfl

set_option maxHeartbeats 1000000 in
/-- At the first block: whatever the scratch and the output buffer held, the scratch ends at the scaled table built from
    the three totals `a4`, `a3`, `a2`, and the output buffer at the result rows computed from that table (the scratch
    read back after the store is what was stored); the six inputs are left as found. -/
theorem run1_first (c : Dev nD) (E : Set ℕ) (i : grid1.Coords) (hi : first1 i)
    (arg1 : Memref sig .tc .vmem S400x4096 .f32) (harg1 : arg1.IsWhole) (arg2 : Memref sig .tc .vmem S400x128 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S128x128 .f32) (harg6 : arg6.IsWhole)
    (arg7 : Memref sig .tc .vmem S400x128 .f32) (harg7 : arg7.IsWhole) (arg8 : Memref sig .tc .vmem S128x4096 .bf16) (harg8 : arg8.IsWhole)
    (x0 : Vec F S400x4096 .f32) (x1 : Vec F S400x128 .f32) (a2 : Vec F S128x4096 .f32) (a3 : Vec F S1x4096 .f32) (a4 : Vec F S1x4096 .f32) (a5 : Vec F S128x128 .f32)
    (K : PUnit → sProp 𝕄) :
    iprop(owns (c : Thread nD τ) arg1 fullShare x0 ∗ owns (c : Thread nD τ) arg2 fullShare x1 ∗ owns (c : Thread nD τ) arg3 fullShare a2
        ∗ owns (c : Thread nD τ) arg4 fullShare a3 ∗ owns (c : Thread nD τ) arg5 fullShare a4 ∗ owns (c : Thread nD τ) arg6 fullShare a5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare a2
            ∗ owns (c : Thread nD τ) arg4 fullShare a3 ∗ owns (c : Thread nD τ) arg5 fullShare a4 ∗ owns (c : Thread nD τ) arg6 fullShare a5
            ∗ owns (c : Thread nD τ) arg7 fullShare (k1_pay2 x0 (k1_pay1 a4 a3 a2) x1 a5)
            ∗ owns (c : Thread nD τ) arg8 fullShare (k1_pay1 a4 a3 a2)) -∗ K ⟨⟩))
      ⊢ wp frame (wpE (defs₀ (F := F)) Variants.none c none) E (cc1__pass2 i arg1 harg1 arg2 harg2 arg3 harg3 arg4 harg4 arg5 harg5 arg6 harg6 arg7 harg7 arg8 harg8) K := by
  simp only [cc1__pass2_eq_skeleton]; unfold cc1__pass2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_singleton_self _, View.mem_set_unit_zero hz2 inb_S400x128_S400x128_0_0 y⟩),
      View.canon_unit_zero hz2]
    simp only [View.readAt_eq_ld, harg1.read_unread, harg2.read_unread, harg3.read_unread, harg4.read_unread, harg5.read_unread, harg6.read_unread,
      View.ld_unit_zero (S := S400x4096) hz2, View.ld_unit_zero (S := S400x128) hz2, View.ld_unit_zero (S := S128x4096) hz2,
      View.ld_unit_zero (S := S1x4096) hz2, View.ld_unit_zero (S := S128x128) hz2,
      View.readCov_unit_zero (S := S128x4096) _ hz2]
  · iexists _; isplitr
    swap; · iexact H8
    ipureintro
    sl_unfold_words
    rw [View.read_writes_eq_canon _ _ _ (fun y => ⟨_, List.mem_singleton_self _, View.mem_set_unit_zero hz2 inb_S128x4096_S128x4096_0_0 y⟩),
      View.canon_unit_zero hz2]
    simp only [View.readAt_eq_ld, harg1.read_unread, harg2.read_unread, harg3.read_unread, harg4.read_unread, harg5.read_unread, harg6.read_unread,
      View.ld_unit_zero (S := S400x4096) hz2, View.ld_unit_zero (S := S400x128) hz2, View.ld_unit_zero (S := S128x4096) hz2,
      View.ld_unit_zero (S := S1x4096) hz2, View.ld_unit_zero (S := S128x128) hz2]

set_option maxHeartbeats 1000000 in
/-- At a later block: the scratch is only read. With the scratch at `s`, the output buffer ends at the result rows
    computed from `s`; the scratch and the six inputs are left as found. -/
theorem run1_later (c : Dev nD) (E : Set ℕ) (i : grid1.Coords) (hi : ¬first1 i)
    (arg1 : Memref sig .tc .vmem S400x4096 .f32) (harg1 : arg1.IsWhole) (arg2 : Memref sig .tc .vmem S400x128 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S128x128 .f32) (harg6 : arg6.IsWhole)
    (arg7 : Memref sig .tc .vmem S400x128 .f32) (harg7 : arg7.IsWhole) (arg8 : Memref sig .tc .vmem S128x4096 .bf16) (harg8 : arg8.IsWhole)
    (x0 : Vec F S400x4096 .f32) (x1 : Vec F S400x128 .f32) (a2 : Vec F S128x4096 .f32) (a3 : Vec F S1x4096 .f32) (a4 : Vec F S1x4096 .f32) (a5 : Vec F S128x128 .f32)
    (s : Vec F S128x4096 .bf16) (K : PUnit → sProp 𝕄) :
    iprop(owns (c : Thread nD τ) arg1 fullShare x0 ∗ owns (c : Thread nD τ) arg2 fullShare x1 ∗ owns (c : Thread nD τ) arg3 fullShare a2
        ∗ owns (c : Thread nD τ) arg4 fullShare a3 ∗ owns (c : Thread nD τ) arg5 fullShare a4 ∗ owns (c : Thread nD τ) arg6 fullShare a5
        ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare a2
            ∗ owns (c : Thread nD τ) arg4 fullShare a3 ∗ owns (c : Thread nD τ) arg5 fullShare a4 ∗ owns (c : Thread nD τ) arg6 fullShare a5
            ∗ owns (c : Thread nD τ) arg7 fullShare (k1_pay2 x0 s x1 a5)
            ∗ owns (c : Thread nD τ) arg8 fullShare s) -∗ K ⟨⟩))
      ⊢ wp frame (wpE (defs₀ (F := F)) Variants.none c none) E (cc1__pass2 i arg1 harg1 arg2 harg2 arg3 harg3 arg4 harg4 arg5 harg5 arg6 harg6 arg7 harg7 arg8 harg8) K := by
  simp only [cc1__pass2_eq_skeleton]; unfold cc1__pass2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_singleton_self _, View.mem_set_unit_zero hz2 inb_S400x128_S400x128_0_0 y⟩),
      View.canon_unit_zero hz2]
    simp only [View.readAt_eq_ld, harg1.read_unread, harg2.read_unread, harg3.read_unread, harg4.read_unread, harg5.read_unread, harg6.read_unread,
      View.ld_unit_zero (S := S400x4096) hz2, View.ld_unit_zero (S := S400x128) hz2, View.ld_unit_zero (S := S128x4096) hz2,
      View.ld_unit_zero (S := S1x4096) hz2, View.ld_unit_zero (S := S128x128) hz2, harg8.read_unread]
  · iexists _; isplitr; · ipureintro; exact harg8.read_unread _
    iexact H8

/-! ## The body obligation at a generic point -/

/-- What the body is handed at point `t`: the invariant, the core's tallies, each window's buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back: the invariant of the next point, the tallies, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point. The six input buffers hold their blocks. At the first point the scratch comes out of the
    scoped rest at anything and goes back at the scaled table, which is built from the three totals as that point finds
    them; at a later point the invariant hands the scratch over at the table and takes it back unchanged. Either way the
    output buffer ends at the block's rows of the result computed from the table. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.succ = PhiS1 V c (t.val + 1) from rfl, PhiS1_pos V c (t.val + 1) (Nat.succ_ne_zero _),
    show (dat1 V c).Φ t.castSucc = PhiS1 V c t.val from rfl,
    after1_0, after1_1, after1_2, after1_3, after1_4, after1_5, after1_6]
  unfold out1
  by_cases hz : t.val = 0
  · rw [PhiS1_zero V c t.val hz, tbl1_at V c t hz]
    unfold Pipeline.ΦA
    iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
    ihave Hs := (scoped_open c) $$ Hsc
    icases Hs with ⟨Hoth, HS⟩
    iapply (run1_first c Set.univ (grid1.coords t) ((first1_iff t).mpr hz) _ _ _ _ _ _ _ _ _ _ _ _ _ _ _ _
      (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS1_pos V c t.val hz]
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩⟩
    iapply (run1_later c Set.univ (grid1.coords t) (fun h => hz ((first1_iff t).mp h)) _ _ _ _ _ _ _ _ _ _ _ _ _ _ _ _
      (iblk1 V c 0 t) (iblk1 V c 1 t) (iblk1 V c 2 t) (iblk1 V c 3 t) (iblk1 V c 4 t) (iblk1 V c 5 t) (tbl1 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body of the second pass at every block. -/
theorem body_obligation1 (c : Dev nD) : BodyObligation (dat1 (F := F) V c) (defs₀ (F := F)) Variants.none () Set.univ := by
  intro t
  rw [bigSep_W1, bigSep_W1]
  exact sound_body1 V c t

/-- What the launch hands the pass is what it keeps before the first point. -/
theorem hin1 (c : Dev nD) : Pipeline.ΦA spec1 c ⊢ (dat1 V c).Φ 0 := by
  rw [show (dat1 V c).Φ 0 = PhiS1 V c 0 from rfl, PhiS1_zero V c 0 rfl]

/-- After the last point the pass gives the scoped rest and the generator register back, the table forgotten. -/
theorem hout1 (c : Dev nD) : (dat1 V c).Φ (Fin.last cfg1.N) ⊢ Pipeline.ΦA spec1 c := by
  rw [show (dat1 V c).Φ (Fin.last cfg1.N) = PhiS1 V c cfg1.N from rfl, PhiS1_pos V c cfg1.N (by decide)]
  unfold Pipeline.ΦA
  iintro ⟨Hoth, HS, Hg⟩
  isplitl [Hoth HS]
  · iapply (scoped_close c (tbl1 V c))
    isplitl [Hoth]; · iexact Hoth
    iexact HS
  iexact Hg

end Cert.KernelIdeal.Hand

end
-- ==== Proof.MainRun.lean ====
import proofs.«168818_g910533067196_cont_9to1c4b_380_8_alg».proof.Proof.PassOne
import proofs.«168818_g910533067196_cont_9to1c4b_380_8_alg».proof.Proof.PassTwo
import Idealize.ShloMosaic.Lib.Pipeline.RegionsLoop
import Idealize.ShloMosaic.Lib.Pipeline.FrameSuffix
import Idealize.ShloMosaic.Lib.Ring

/-!
# The whole program: first pass, one transposition on the host, second pass

The buffer contents at each boundary form a chain from the launch memory: the first pass leaves its three totals in
their arrays (`W2`), the host transposes the weight (`W3`), the second pass leaves the result in its array (`W4`).
Every weakly fair execution ends with every unscoped buffer at `W4`; the arguments are written by nobody, and the
result array holds what the second pass's write-backs leave.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- Core `c`'s buffers at launch (the first pass's entry). -/
abbrev W0 : Dev nD → Valuation τ sig (Elt F) := fun c b => m ((c : Dev nD), b)
/-- The same read at the TensorCore's references. -/
abbrev V1 : (c : Dev nD) → (b : Ref sig .tc) → Buf (Elt F) ((c : Thread nD τ).loc b) := fun c b => W0 m c b
/-- After the first pass: its arrays at what its write-backs leave, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host's transposition (the second pass's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second pass. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The host's one operation writes the transposed weight's buffer and nothing else. -/
theorem W3_of_ne (c : Dev nD) (b : Ref sig .tc) (hb : b ≠ main_v1) :
    W3 m c (Proc.devRef .tc b) = W2 m c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 1).trans (((dat1 (V3 m) c).arrAt_in 1 rfl _).trans (A_eq1 (V3 m) c 1))
    _ = W2 m c (Proc.devRef .tc main_arg0) := W3_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat1 (V3 m) c).arrAt_in 0 rfl _).trans (A_eq1 (V3 m) c 0))
    _ = W2 m c (Proc.devRef .tc main_arg1) := W3_of_ne m c main_arg1 (by decide)
    _ = W0 m c (Proc.devRef .tc main_arg1) := (W2_arr m c 1).trans (((dat0 (V1 m) c).arrAt_in 1 rfl _).trans (A_eq0 (V1 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W0 m c (Proc.devRef .tc main_arg2) := W2_of_ne m c main_arg2 (by decide)
    _ = m ((c : Thread nD τ).loc main_arg2) := rfl

/-- The result array ends at what the second pass's write-backs leave. -/
theorem W4_main_v2 (c : Dev nD) : W4 m c (Proc.devRef .tc main_v2) = (dat1 (V3 m) c).arrAt 6 cfg1.N :=
  W4_arr m c 6

/-! ## The proof data family and the thread state -/

abbrev adm : (p : Fin 2) → (pcfgs (F := F) p).Adm := fun p => (cfgs p).toPCfg_adm
/-- Both passes' proof data, each at its pass's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The passes as segments -/

set_option backward.isDefEq.respectTransparency.types false in
/-- The first pass over the thread state: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V3 m) c
    iintro ⟨Hp, -, Hr⟩
    iapply h
    unfold Pipeline.ΦA
    isplitl [Hr]; · iexact Hr
    iexact Hp
  hout c := by
    rw [Pipeline.ownSems0_none]
    have h : (pdats m 1 c).Φ (Fin.last _) ⊢ Pipeline.ΦA spec1 c := hout1 (V3 m) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in
/-- Every weakly fair execution from memory `m` with zero counters terminates, nothing faulting, with every unscoped
    buffer of every core at `W4`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_main m ρ)

/-- The run with the result named: the result array ends at what the second pass's write-backs leave, the arguments
    as launched. -/
theorem run_value : θ_run defs (onTc (τ := τ) (main (F := F))) ⟨m, fun _ => 0, ρ⟩ (fun r => ∀ c : Dev nD,
      r.2.mem ((c.tc : Thread nD τ).loc main_v2) = (dat1 (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W4_main_v2 m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_main m ρ)

end Cert.KernelIdeal.Hand

end
-- ==== Proof.Layer.lean ====
import Idealize.ShloMosaic.PureOps.Ideal
import Idealize.ShloMosaic.Lib.ValueIdx

/-!
# The layer as one function of its three arrays

A hypergraph layer over `N = 10000` nodes, `E = 4096` hyperedges and `D = 128` features: `x : N × D` the node
features, `B : N × E` the incidence matrix, `W : D × D` the weight.

* node degree `dₙ n = ∑ₑ B n e`; edge degree `dₑ e = (∑ₙ dₙ n · B n e) / (∑ₙ B n e)`;
* node-to-edge messages `m e d = ∑ₙ B n e · x n d`;
* edge-to-node messages `u n d = dₙ(n)^(-1/2) · ∑ₑ (B n e · dₑ(e)^(-1/2)) · m e d`;
* the skip connection `c n d = (9/10)ᶠ · u n d + (1/10)ᶠ · x n d` (the two float words as they stand);
* the result `c n j / 2 + (∑ₖ c n k · W j k) / 2`.

Two readings of `y^(-1/2)` occur: the quotient `1 / √y` (`refOut`) and the one-step reciprocal square root
(`kerOut`). On the extended reals they agree exactly where `0 ≤ y` (at `0` both are `⊤`, at `⊤` both `0`); below
zero the first is `1 / ⊥ = 0` and the second `⊥`. Everything else the two readings differ by is the order of
factors in a product and the grouping of a sum, which the extended reals do not see.
-/

noncomputable section

namespace Cert.Layer

open Idealize.ShloMosaic Idealize.ShloMosaic.ValueIdx

abbrev SX : Shape := ⟨2, ![10000, 128]⟩
abbrev SB : Shape := ⟨2, ![10000, 4096]⟩
abbrev SW : Shape := ⟨2, ![128, 128]⟩

/-- The two scalars of the skip connection and the half, as the float words both programs carry. -/
abbrev c09 : EReal := Ideal.ofBits .f32 0x3F666666#32
abbrev c01 : EReal := Ideal.ofBits .f32 0x3DCCCCCD#32
abbrev c05 : EReal := Ideal.ofBits .f32 0x3F000000#32

variable (x : SX.Idx → EReal) (B : SB.Idx → EReal) (W : SW.Idx → EReal)

/-- Node degree: the row sum of the incidence matrix. -/
def nodeDeg (n : Fin 10000) : EReal := ∑ e : Fin 4096, B (ix2 n e)
/-- Column sum of the incidence matrix. -/
def colSum (e : Fin 4096) : EReal := ∑ n : Fin 10000, B (ix2 n e)
/-- Column sum of the incidence matrix weighted by the node degrees. -/
def wSum (e : Fin 4096) : EReal := ∑ n : Fin 10000, nodeDeg B n * B (ix2 n e)
/-- Edge degree: the weighted column sum over the plain one (the float quotient, zero divisors included). -/
def edgeDeg (e : Fin 4096) : EReal := Ideal.div (wSum B e) (colSum B e)
/-- Node-to-edge message: `(Bᵀ x) e d`. -/
def msg (e : Fin 4096) (d : Fin 128) : EReal := ∑ n : Fin 10000, B (ix2 n e) * x (ix2 n d)

/-! ## With the quotient `1 / √y` -/

def refInv (y : EReal) : EReal := Ideal.div 1 (Ideal.sqrt y)
def refBack (n : Fin 10000) (d : Fin 128) : EReal :=
  refInv (nodeDeg B n) * ∑ e : Fin 4096, (B (ix2 n e) * refInv (edgeDeg B e)) * msg x B e d
def refComb (n : Fin 10000) (d : Fin 128) : EReal := c09 * refBack x B n d + c01 * x (ix2 n d)
def refOut : SX.Idx → EReal := fun i =>
  c05 * refComb x B (i 0) (i 1) + c05 * ∑ k : Fin 128, refComb x B (i 0) k * W (ix2 (i 1) k)

/-! ## With the reciprocal square root, the factors in the other order -/

/-- The weighted column sum with the factors swapped. -/
def wSum' (e : Fin 4096) : EReal := ∑ n : Fin 10000, B (ix2 n e) * nodeDeg B n
def edgeDeg' (e : Fin 4096) : EReal := Ideal.div (wSum' B e) (colSum B e)
/-- The message table transposed, `(xᵀ B) d e`, each column scaled by its edge's `dₑ^(-1/2)`. -/
def msgT (d : Fin 128) (e : Fin 4096) : EReal := ∑ n : Fin 10000, x (ix2 n d) * B (ix2 n e)
def scaled (d : Fin 128) (e : Fin 4096) : EReal := msgT x B d e * Ideal.rsqrt (edgeDeg' B e)
def kerBack (n : Fin 10000) (d : Fin 128) : EReal :=
  (∑ e : Fin 4096, B (ix2 n e) * scaled x B d e) * Ideal.rsqrt (nodeDeg B n)
def kerComb (n : Fin 10000) (d : Fin 128) : EReal := c09 * kerBack x B n d + c01 * x (ix2 n d)
def kerOut : SX.Idx → EReal := fun i =>
  c05 * kerComb x B (i 0) (i 1) + c05 * ∑ k : Fin 128, kerComb x B (i 0) k * W (ix2 (i 1) k)

/-! ## The two agree where no degree is negative -/

/-- On `[0, ⊤]` the reciprocal square root is the quotient `1 / √y`. -/
theorem rsqrt_eq_refInv {y : EReal} (hy : 0 ≤ y) : Ideal.rsqrt y = refInv y := by
  induction y using EReal.rec with
  | bot => exact absurd hy (by simp)
  | top => simp [refInv, Ideal.div]
  | coe r =>
    have hr : 0 ≤ r := by exact_mod_cast hy
    rcases hr.eq_or_lt with h | h
    · subst h
      have h1 : Ideal.rsqrt ((0 : ℝ) : EReal) = ⊤ := by rw [Ideal.rsqrt_coe]; simp
      have h2 : Ideal.sqrt ((0 : ℝ) : EReal) = 0 := by rw [Ideal.sqrt_coe]; simp
      rw [h1, refInv, h2]
      simp [Ideal.div]
    · have hs : Real.sqrt r ≠ 0 := (Real.sqrt_pos.mpr h).ne'
      have hs' : (Real.sqrt r : EReal) ≠ 0 := by exact_mod_cast hs
      simp [refInv, Ideal.div, not_lt.mpr hr, h.ne', hs', EReal.coe_inv]

/-- The weighted column sum does not see the order of its two factors. -/
theorem wSum'_eq (e : Fin 4096) : wSum' B e = wSum B e :=
  Finset.sum_congr rfl (fun _ _ => mul_comm _ _)

theorem edgeDeg'_eq (e : Fin 4096) : edgeDeg' B e = edgeDeg B e := by
  unfold edgeDeg' edgeDeg
  rw [wSum'_eq]

/-- The transposed message table is the message table. -/
theorem msgT_eq (d : Fin 128) (e : Fin 4096) : msgT x B d e = msg x B e d :=
  Finset.sum_congr rfl (fun _ _ => mul_comm _ _)

/-- Edge-to-node messages: `B · (m · r) = (B · r) · m` in every summand, and `(∑ …) · r = r · ∑ …`. -/
theorem kerBack_eq (hn : ∀ n, 0 ≤ nodeDeg B n) (he : ∀ e, 0 ≤ edgeDeg B e)
    (n : Fin 10000) (d : Fin 128) : kerBack x B n d = refBack x B n d := by
  unfold kerBack refBack
  rw [rsqrt_eq_refInv (hn n), mul_comm]
  congr 1
  refine Finset.sum_congr rfl (fun e _ => ?_)
  unfold scaled
  rw [edgeDeg'_eq, rsqrt_eq_refInv (he e), msgT_eq, mul_comm (msg x B e d), ← mul_assoc]

theorem kerComb_eq (hn : ∀ n, 0 ≤ nodeDeg B n) (he : ∀ e, 0 ≤ edgeDeg B e)
    (n : Fin 10000) (d : Fin 128) : kerComb x B n d = refComb x B n d := by
  unfold kerComb refComb
  rw [kerBack_eq x B hn he]

theorem kerOut_eq_refOut (hn : ∀ n, 0 ≤ nodeDeg B n) (he : ∀ e, 0 ≤ edgeDeg B e) :
    kerOut x B W = refOut x B W := by
  have h : kerComb x B = refComb x B :=
    funext fun n => funext fun d => kerComb_eq x B hn he n d
  unfold kerOut refOut
  rw [h]

end Cert.Layer

end
-- ==== Proof.LibLastAxis.lean ====
/-
  A matrix reduced along its rows, and the column that result is kept in, read at an index.

  A row-wise normalisation (a softmax, a mean, a norm) of an `[a, b]` matrix takes a reduction over the last axis, which
  leaves one number per row, stores those numbers as an `[a, 1]` column ("keepdims"), and spreads the column back over the
  `b` entries of each row. This file reads each of those three steps at an index written by coordinates:

  * the column made from a vector, `[a] → [a, 1]`, at `(i, u)` is the vector at `i`;
  * the column spread over the rows' entries, `[a, 1] → [a, b]`, at `(p, c)` is the column at `(p, 0)`;
  * at the exact (extended real) values a sum along the last axis, at row `p`, is `∑ e : Fin b` of the matrix at `(p, e)`,
    and a maximum along it is the fold of `max` over `e : Fin b` from the value of the accumulator's word: both for the
    vector unit's `multi_reduction` and for a host `reduce`.

  The reduction facts rest on one index identity: the reduced index `p` with the coordinate `k` put back on the last axis
  is `(p, k)`.
-/
import Idealize.ShloMosaic.Lib.Pipeline.Value
import Idealize.ShloMosaic.Lib.ValueIdx
import Idealize.ShloMosaic.PureOps.Ideal.Laws

namespace Cert.LastAxis

open Idealize.ShloMosaic Idealize.ShloMosaic.ValueIdx

variable {α : Type}

/-! ## The kept column -/

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The last axis put back -/

/-- Row `p` with the coordinate `k` put back on the last axis is the index `(p, k)`. -/
theorem lift_last {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## A sum and a maximum along the last axis, at the exact values -/

/-- The vector unit's sum along the last axis of an `[a, b]` matrix, at row `p`: the sum of that row's `b` entries. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ e : Fin b, src (ix2 p e) := by
  refine (Ideal.multiReduction_add_single src acc h hφ hacc (ix1 p)).trans ?_
  show ∑ k : Fin b, src (h.lift (ix1 p) k) = ∑ e : Fin b, src (ix2 p e)
  exact Finset.sum_congr rfl fun k _ => congrArg src (lift_last h p k)

/-- The vector unit's maximum along the last axis, at row `p`: the fold of `max` over that row's `b` entries, from the
    value the accumulator's word denotes. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun e => src (ix2 p e)) := by
  refine (Ideal.multiReduction_maximumf_single src acc h hφ hacc (ix1 p)).trans ?_
  have hf : (src ∘ h.lift (ix1 p)) = fun k : Fin b => src (ix2 p k) := funext fun k => congrArg src (lift_last h p k)
  exact congrArg (fun f => Finset.fold max (Ideal.ofBits .f32 acc) f (Finset.univ : Finset (Fin b))) hf

/-- A host `reduce` with a maximum body along the last axis, at row `p`: the same fold, from the initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun e => x (ix2 p e)) := by
  refine (Host.reduce_eq_fold_single FloatOps.maximumf x init h' h hu (ix1 p)).trans ?_
  have hf : (x ∘ h.lift (ix1 p)) = fun k : Fin b => x (ix2 p k) := funext fun k => congrArg x (lift_last h p k)
  exact congrArg (fun f => Finset.fold max (init (Shape.Idx.first hu)) f (Finset.univ : Finset (Fin b))) hf

end Cert.LastAxis
-- ==== Proof.PassOneValue.lean ====
import proofs.«168818_g910533067196_cont_9to1c4b_380_8_alg».proof.Proof.PassOne
import proofs.«168818_g910533067196_cont_9to1c4b_380_8_alg».proof.Proof.Layer
import proofs.«168818_g910533067196_cont_9to1c4b_380_8_alg».proof.Proof.LibLastAxis
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

/-!
# What the first pass leaves, on the extended reals

Read exactly, the three running totals after the last block are sums over all 10000 rows: the transposed message
table `(xᵀ B) d e`, the column sums of `B`, and the column sums weighted by the row sums. Each block contributes
its 400 rows' share (a matrix product into a zero accumulator, and lane and sublane sums, are plain finite sums
here), and twenty-five blocks of 400 rows are the 10000 rows, whatever the grouping: addition of extended reals
is commutative and associative.

The steps, in order: one block's share of each total at an entry, as a sum over the block's 400 rows; a block's row `r` at
point `t` is row `400 t + r` of its array; the totals after block `n` are the shares of blocks `0 … n` added up
(induction on `n`); the pairs (block, row in the block) are the 10000 rows; the totals are written back once, after the
last block, over the whole of their arrays.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Layer

variable (V : (c : Dev nD) → (b : Ref sig .tc) → Buf (Elt Ideal) ((c : Thread nD τ).loc b))
variable (x : SX.Idx → EReal) (B : SB.Idx → EReal)

namespace FirstPass

/-! ## The matrix product's operand indices -/

theorem lhs_pay1_0 (i : S128x4096.Idx) (q : dot_S128x400_S400x4096_S128x4096_1_0_0_1_n_n.contr.Idx) :
    (dot_S128x400_S400x4096_S128x4096_1_0_0_1_n_n.lhsIdx i q 0).val = (i 0).val := by
  unfold DotDims.lhsIdx
  rw [dif_neg (show ¬(0 : Fin S128x400.rank) ∈ dot_S128x400_S400x4096_S128x4096_1_0_0_1_n_n.lhsBatch by decide), dif_pos (show (0 : Fin S128x400.rank) ∈ dot_S128x400_S400x4096_S128x4096_1_0_0_1_n_n.lhsNonContracting by decide)]
  rfl
theorem lhs_pay1_1 (i : S128x4096.Idx) (q : dot_S128x400_S400x4096_S128x4096_1_0_0_1_n_n.contr.Idx) :
    (dot_S128x400_S400x4096_S128x4096_1_0_0_1_n_n.lhsIdx i q 1).val = (q ⟨0, by decide⟩).val :=
  dot_S128x400_S400x4096_S128x4096_1_0_0_1_n_n.lhsIdx_val_of_single rfl i q
theorem rhs_pay1_0 (i : S128x4096.Idx) (q : dot_S128x400_S400x4096_S128x4096_1_0_0_1_n_n.contr.Idx) :
    (dot_S128x400_S400x4096_S128x4096_1_0_0_1_n_n.rhsIdx i q 0).val = (q ⟨0, by decide⟩).val :=
  dot_S128x400_S400x4096_S128x4096_1_0_0_1_n_n.rhsIdx_val_of_single rfl i q
theorem rhs_pay1_1 (i : S128x4096.Idx) (q : dot_S128x400_S400x4096_S128x4096_1_0_0_1_n_n.contr.Idx) :
    (dot_S128x400_S400x4096_S128x4096_1_0_0_1_n_n.rhsIdx i q 1).val = (i 1).val := by
  unfold DotDims.rhsIdx
  rw [dif_neg (show ¬(1 : Fin S400x4096.rank) ∈ dot_S128x400_S400x4096_S128x4096_1_0_0_1_n_n.rhsBatch by decide), dif_pos (show (1 : Fin S400x4096.rank) ∈ dot_S128x400_S400x4096_S128x4096_1_0_0_1_n_n.rhsNonContracting by decide)]
  rfl

theorem pay1_apply (v0 : Vec Ideal S400x4096 .f32) (v1 : Vec Ideal S400x128 .f32) (d : Fin 128) (e : Fin 4096) :
    k0_pay1 (F := Ideal) v0 v1 (ix2 d e) = ∑ r : Fin 400, v1 (ix2 r d) * v0 (ix2 r e) := by
  unfold k0_pay1
  dsimp only
  simp only [matmul]
  rw [Ideal.matmul_constant_zero_apply, ← Equiv.sum_comp (contrEquiv1 dot_S128x400_S400x4096_S128x4096_1_0_0_1_n_n 400 rfl rfl).symm]
  refine Finset.sum_congr rfl fun k _ => ?_
  have hk := contrEquiv1_symm_val dot_S128x400_S400x4096_S128x4096_1_0_0_1_n_n 400 rfl rfl k
  have el : dot_S128x400_S400x4096_S128x4096_1_0_0_1_n_n.lhsIdx (ix2 d e) ((contrEquiv1 dot_S128x400_S400x4096_S128x4096_1_0_0_1_n_n 400 rfl rfl).symm k) = (ix2 d k : S128x400.Idx) := funext fun a => Fin.ext (by
    match a with
    | ⟨0, _⟩ => exact lhs_pay1_0 _ _
    | ⟨1, _⟩ => exact (lhs_pay1_1 _ _).trans hk)
  have er : dot_S128x400_S400x4096_S128x4096_1_0_0_1_n_n.rhsIdx (ix2 d e) ((contrEquiv1 dot_S128x400_S400x4096_S128x4096_1_0_0_1_n_n 400 rfl rfl).symm k) = (ix2 k e : S400x4096.Idx) := funext fun a => Fin.ext (by
    match a with
    | ⟨0, _⟩ => exact (rhs_pay1_0 _ _).trans hk
    | ⟨1, _⟩ => exact rhs_pay1_1 _ _)
  rw [el, er, truncf_apply, truncf_apply]
  refine congrArg (· * v0 (ix2 k e)) ?_
  exact transpose_apply [1, 0] v1 transposes_S400x128_p1_0_S128x400 (ix2 d k) (ix2 k d) (fun b => match b with
    | ⟨0, _⟩ => rfl
    | ⟨1, _⟩ => rfl)

/-! ## A sum down the first axis, at the exact values -/

/-- Column `q` with the coordinate `k` put back on the first axis is the index `(k, q)`. -/
theorem lift_first {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- The sum down the first axis of an `[a, b]` matrix, at column `q`: the sum of that column's `a` entries. -/
theorem sumFirst_apply {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (q : Fin b) :
    multiReduction .add [0] ⟨1, ![b]⟩ src acc h hφ hacc (ix1 q) = ∑ r : Fin a, src (ix2 r q) := by
  refine (Ideal.multiReduction_add_single src acc h hφ hacc (ix1 q)).trans ?_
  show ∑ k : Fin a, src (h.lift (ix1 q) k) = ∑ r : Fin a, src (ix2 r q)
  exact Finset.sum_congr rfl fun k _ => congrArg src (lift_first h q k)

/-! ## What one block contributes, entry by entry -/

/-- The block's column sums: entry `(0, e)` is the sum of column `e` over the block's 400 rows. -/
theorem pay2_apply (v0 : Vec Ideal S400x4096 .f32) (u : Fin 1) (e : Fin 4096) :
    k0_pay2 (F := Ideal) v0 (ix2 u e) = ∑ r : Fin 400, v0 (ix2 r e) := by
  unfold k0_pay2
  dsimp only
  refine (shapeCast_a_1a_apply _ shapeCasts_S4096_S1x4096 u e).trans ?_
  exact sumFirst_apply v0 _ reduces_S400x4096_S4096 _ _ e

/-- The block's column sums weighted by its row sums: entry `(0, e)` is the sum over the block's rows `r` of the entry
    `(r, e)` times the sum of row `r`. -/
theorem pay3_apply (v0 : Vec Ideal S400x4096 .f32) (u : Fin 1) (e : Fin 4096) :
    k0_pay3 (F := Ideal) v0 (ix2 u e) = ∑ r : Fin 400, v0 (ix2 r e) * ∑ e' : Fin 4096, v0 (ix2 r e') := by
  unfold k0_pay3
  dsimp only
  refine (shapeCast_a_1a_apply _ shapeCasts_S4096_S1x4096 u e).trans ?_
  refine (sumFirst_apply _ _ reduces_S400x4096_S4096 _ _ e).trans ?_
  refine Finset.sum_congr rfl fun r _ => ?_
  rw [mulf_apply]
  refine congrArg (v0 (ix2 r e) * ·) ?_
  refine (Cert.LastAxis.broadcastTo_a1_ab_apply _ broadcasts_S400x1_S400x4096 r e).trans ?_
  refine (Cert.LastAxis.shapeCast_a_a1_apply _ shapeCasts_S400_S400x1 r 0).trans ?_
  exact Cert.LastAxis.rowSum_apply v0 _ reduces_S400x4096_S400 _ _ r

/-- A later block adds its share to the running total, entry by entry. -/
theorem pay4_apply (v0 : Vec Ideal S400x4096 .f32) (v1 : Vec Ideal S400x128 .f32) (a : Vec Ideal S128x4096 .f32) (j : S128x4096.Idx) :
    k0_pay4 (F := Ideal) v0 v1 a j = a j + k0_pay1 (F := Ideal) v0 v1 j := by
  unfold k0_pay4
  rw [addf_apply, shapeCast_self]
theorem pay5_apply (v0 : Vec Ideal S400x4096 .f32) (a : Vec Ideal S1x4096 .f32) (j : S1x4096.Idx) :
    k0_pay5 (F := Ideal) v0 a j = a j + k0_pay2 (F := Ideal) v0 j := by
  unfold k0_pay5
  rw [addf_apply, shapeCast_self]
theorem pay6_apply (v0 : Vec Ideal S400x4096 .f32) (a : Vec Ideal S1x4096 .f32) (j : S1x4096.Idx) :
    k0_pay6 (F := Ideal) v0 a j = a j + k0_pay3 (F := Ideal) v0 j := by
  unfold k0_pay6
  rw [addf_apply, shapeCast_self]

/-! ## A block is 400 consecutive rows of its array -/

/-- Both inputs' block index at point `t` is `(t, 0)`. -/
theorem in_index0 : ∀ t : Fin cfg0.N, win0_0.index t (0 : Fin 2) = t.val ∧ win0_0.index t (1 : Fin 2) = 0
      ∧ win0_1.index t (0 : Fin 2) = t.val ∧ win0_1.index t (1 : Fin 2) = 0 :=
  (by decide +kernel : ∀ t : Fin grid0.N, win0_0.index t (0 : Fin 2) = t.val ∧ win0_0.index t (1 : Fin 2) = 0
      ∧ win0_1.index t (0 : Fin 2) = t.val ∧ win0_1.index t (1 : Fin 2) = 0)

/-- Row `r` of the incidence block at point `t` is row `400 t + r` of the incidence matrix. -/
theorem bblk0_apply (c : Dev nD) (hB : V c main_arg1 = B) (t : Fin cfg0.N) (r : Fin 400) (e : Fin 4096) (k : Fin 10000)
    (hk : k.val = 400 * t.val + r.val) : bblk0 V c t (ix2 r e) = B (ix2 k e) := by
  have hi := in_index0 t
  unfold bblk0 iblk0
  rw [View.read_apply]
  show V c main_arg1 _ = B _
  rw [hB]
  congr 1
  funext a
  apply Fin.ext
  match a with
  | ⟨0, _⟩ => show win0_1.index t 0 * 400 + 1 * r.val = k.val; rw [hi.2.2.1, hk]; omega
  | ⟨1, _⟩ => show win0_1.index t 1 * 4096 + 1 * e.val = e.val; rw [hi.2.2.2]; omega

/-- Row `r` of the features' block at point `t` is row `400 t + r` of the features. -/
theorem xblk0_apply (c : Dev nD) (hx : V c main_arg0 = x) (t : Fin cfg0.N) (r : Fin 400) (d : Fin 128) (k : Fin 10000)
    (hk : k.val = 400 * t.val + r.val) : xblk0 V c t (ix2 r d) = x (ix2 k d) := by
  have hi := in_index0 t
  unfold xblk0 iblk0
  rw [View.read_apply]
  show V c main_arg0 _ = x _
  rw [hx]
  congr 1
  funext a
  apply Fin.ext
  match a with
  | ⟨0, _⟩ => show win0_0.index t 0 * 400 + 1 * r.val = k.val; rw [hi.1, hk]; omega
  | ⟨1, _⟩ => show win0_0.index t 1 * 128 + 1 * d.val = d.val; rw [hi.2.1]; omega

/-! ## Twenty-five blocks of 400 rows are the 10000 rows -/

/-- Row `r` of block `s`, as a row of the whole array. -/
def rowOf (s : ℕ) (hs : s < 25) (r : Fin 400) : Fin 10000 := ⟨400 * s + r.val, by have := r.isLt; omega⟩

/-- A quantity that is, for each of the 25 blocks, the sum of `f` over the block's 400 rows, summed over the blocks, is the
    sum of `f` over all 10000 rows: the pairs (block, row in the block) are the rows, and a finite sum does not depend on
    the order of its terms. -/
theorem sum_blocks (f : Fin 10000 → EReal) (g : ℕ → EReal)
    (hg : ∀ (s : ℕ) (hs : s < 25), g s = ∑ r : Fin 400, f (rowOf s hs r)) :
    ∑ s ∈ Finset.range 25, g s = ∑ k : Fin 10000, f k := by
  rw [Finset.sum_range]
  have e : ∑ k : Fin 10000, f k = ∑ p : Fin 25 × Fin 400, f (finProdFinEquiv p) :=
    (Equiv.sum_comp (finProdFinEquiv (m := 25) (n := 400)) f).symm
  rw [e, Fintype.sum_prod_type]
  refine Finset.sum_congr rfl fun i _ => ?_
  rw [hg i.val i.isLt]
  refine Finset.sum_congr rfl fun r _ => congrArg f (Fin.ext ?_)
  show 400 * i.val + r.val = r.val + 400 * i.val
  omega

/-! ## The running totals after block `n`: the blocks' shares, added up -/

/-- What block `s` adds to the message table at `(d, e)` (nothing past the grid). -/
def share1 (c : Dev nD) (d : Fin 128) (e : Fin 4096) (s : ℕ) : EReal :=
  if hs : s < cfg0.N then k0_pay1 (F := Ideal) (bblk0 V c ⟨s, hs⟩) (xblk0 V c ⟨s, hs⟩) (ix2 d e) else 0
/-- What block `s` adds to the column sums at `e`. -/
def share2 (c : Dev nD) (u : Fin 1) (e : Fin 4096) (s : ℕ) : EReal :=
  if hs : s < cfg0.N then k0_pay2 (F := Ideal) (bblk0 V c ⟨s, hs⟩) (ix2 u e) else 0
/-- What block `s` adds to the weighted column sums at `e`. -/
def share3 (c : Dev nD) (u : Fin 1) (e : Fin 4096) (s : ℕ) : EReal :=
  if hs : s < cfg0.N then k0_pay3 (F := Ideal) (bblk0 V c ⟨s, hs⟩) (ix2 u e) else 0

theorem share1_of_lt (c : Dev nD) (d : Fin 128) (e : Fin 4096) (s : ℕ) (hs : s < cfg0.N) :
    share1 V c d e s = k0_pay1 (F := Ideal) (bblk0 V c ⟨s, hs⟩) (xblk0 V c ⟨s, hs⟩) (ix2 d e) := by
  unfold share1; rw [dif_pos hs]
theorem share2_of_lt (c : Dev nD) (u : Fin 1) (e : Fin 4096) (s : ℕ) (hs : s < cfg0.N) :
    share2 V c u e s = k0_pay2 (F := Ideal) (bblk0 V c ⟨s, hs⟩) (ix2 u e) := by
  unfold share2; rw [dif_pos hs]
theorem share3_of_lt (c : Dev nD) (u : Fin 1) (e : Fin 4096) (s : ℕ) (hs : s < cfg0.N) :
    share3 V c u e s = k0_pay3 (F := Ideal) (bblk0 V c ⟨s, hs⟩) (ix2 u e) := by
  unfold share3; rw [dif_pos hs]

theorem acc0_1_apply (c : Dev nD) (d : Fin 128) (e : Fin 4096) : ∀ (n : ℕ) (h : n < cfg0.N),
    (acc0 V c n h).1 (ix2 d e) = ∑ s ∈ Finset.range (n + 1), share1 V c d e s
  | 0, h => by
    rw [acc0_zero, Finset.sum_range_one]
    exact (share1_of_lt V c d e 0 h).symm
  | n + 1, h => by
    rw [acc0_succ]
    refine (pay4_apply _ _ _ _).trans ?_
    rw [acc0_1_apply c d e n, Finset.sum_range_succ _ (n + 1)]
    exact congrArg (_ + ·) (share1_of_lt V c d e (n + 1) h).symm

theorem acc0_2_apply (c : Dev nD) (u : Fin 1) (e : Fin 4096) : ∀ (n : ℕ) (h : n < cfg0.N),
    (acc0 V c n h).2.1 (ix2 u e) = ∑ s ∈ Finset.range (n + 1), share2 V c u e s
  | 0, h => by
    rw [acc0_zero, Finset.sum_range_one]
    exact (share2_of_lt V c u e 0 h).symm
  | n + 1, h => by
    rw [acc0_succ]
    refine (pay5_apply _ _ _).trans ?_
    rw [acc0_2_apply c u e n, Finset.sum_range_succ _ (n + 1)]
    exact congrArg (_ + ·) (share2_of_lt V c u e (n + 1) h).symm

theorem acc0_3_apply (c : Dev nD) (u : Fin 1) (e : Fin 4096) : ∀ (n : ℕ) (h : n < cfg0.N),
    (acc0 V c n h).2.2 (ix2 u e) = ∑ s ∈ Finset.range (n + 1), share3 V c u e s
  | 0, h => by
    rw [acc0_zero, Finset.sum_range_one]
    exact (share3_of_lt V c u e 0 h).symm
  | n + 1, h => by
    rw [acc0_succ]
    refine (pay6_apply _ _ _).trans ?_
    rw [acc0_3_apply c u e n, Finset.sum_range_succ _ (n + 1)]
    exact congrArg (_ + ·) (share3_of_lt V c u e (n + 1) h).symm

/-! ## After the last block -/

/-- The last point of the grid. -/
theorem lastPt : (24 : ℕ) < cfg0.N := by rw [show cfg0.N = 25 from N_0]; decide

/-- The message table after the last block: `(xᵀ B) d e`, summed over all 10000 rows. -/
theorem acc0_1_last (c : Dev nD) (hx : V c main_arg0 = x) (hB : V c main_arg1 = B) :
    (acc0 V c 24 lastPt).1 = fun i : S128x4096.Idx => msgT x B (i 0) (i 1) := by
  funext j
  obtain ⟨d, e, rfl⟩ : ∃ (d : Fin 128) (e : Fin 4096), j = ix2 d e := ⟨j 0, j 1, eq_ix2 j⟩
  rw [acc0_1_apply]
  show _ = ∑ n : Fin 10000, x (ix2 n d) * B (ix2 n e)
  refine sum_blocks (fun k => x (ix2 k d) * B (ix2 k e)) _ fun s hs => ?_
  have hs' : s < cfg0.N := by rw [show cfg0.N = 25 from N_0]; exact hs
  rw [share1_of_lt V c d e s hs']
  refine (pay1_apply _ _ d e).trans (Finset.sum_congr rfl fun r _ => ?_)
  rw [xblk0_apply V x c hx ⟨s, hs'⟩ r d (rowOf s hs r) rfl, bblk0_apply V B c hB ⟨s, hs'⟩ r e (rowOf s hs r) rfl]

/-- The column sums after the last block. -/
theorem acc0_2_last (c : Dev nD) (hB : V c main_arg1 = B) :
    (acc0 V c 24 lastPt).2.1 = fun i : S1x4096.Idx => colSum B (i 1) := by
  funext j
  obtain ⟨u, e, rfl⟩ : ∃ (u : Fin 1) (e : Fin 4096), j = ix2 u e := ⟨j 0, j 1, eq_ix2 j⟩
  rw [acc0_2_apply]
  show _ = ∑ n : Fin 10000, B (ix2 n e)
  refine sum_blocks (fun k => B (ix2 k e)) _ fun s hs => ?_
  have hs' : s < cfg0.N := by rw [show cfg0.N = 25 from N_0]; exact hs
  rw [share2_of_lt V c u e s hs']
  refine (pay2_apply _ u e).trans (Finset.sum_congr rfl fun r _ => ?_)
  rw [bblk0_apply V B c hB ⟨s, hs'⟩ r e (rowOf s hs r) rfl]

/-- The weighted column sums after the last block: each row's entry times that row's sum. -/
theorem acc0_3_last (c : Dev nD) (hB : V c main_arg1 = B) :
    (acc0 V c 24 lastPt).2.2 = fun i : S1x4096.Idx => wSum' B (i 1) := by
  funext j
  obtain ⟨u, e, rfl⟩ : ∃ (u : Fin 1) (e : Fin 4096), j = ix2 u e := ⟨j 0, j 1, eq_ix2 j⟩
  rw [acc0_3_apply]
  show _ = ∑ n : Fin 10000, B (ix2 n e) * ∑ e' : Fin 4096, B (ix2 n e')
  refine sum_blocks (fun k => B (ix2 k e) * ∑ e' : Fin 4096, B (ix2 k e')) _ fun s hs => ?_
  have hs' : s < cfg0.N := by rw [show cfg0.N = 25 from N_0]; exact hs
  rw [share3_of_lt V c u e s hs']
  refine (pay3_apply _ u e).trans (Finset.sum_congr rfl fun r _ => ?_)
  rw [bblk0_apply V B c hB ⟨s, hs'⟩ r e (rowOf s hs r) rfl]
  refine congrArg (B (ix2 (rowOf s hs r) e) * ·) (Finset.sum_congr rfl fun e' _ => ?_)
  rw [bblk0_apply V B c hB ⟨s, hs'⟩ r e' (rowOf s hs r) rfl]

/-! ## The one write-back writes the whole array -/

/-- The three totals' block index is `(0, 0)` at every point: the block is the whole array. -/
theorem out_index0 : ∀ (t : Fin cfg0.N) (a : Fin 2), win0_2.index t a = 0 ∧ win0_3.index t a = 0 ∧ win0_4.index t a = 0 :=
  (by decide +kernel : ∀ (t : Fin grid0.N) (a : Fin 2), win0_2.index t a = 0 ∧ win0_3.index t a = 0 ∧ win0_4.index t a = 0)

end FirstPass

open FirstPass

/-- The message table's array after the first pass. -/
theorem arrAt0_2 (c : Dev nD) (hx : V c main_arg0 = x) (hB : V c main_arg1 = B) :
    (dat0 (F := Ideal) V c).arrAt 2 cfg0.N = fun i : S128x4096.Idx => msgT x B (i 0) (i 1) := by
  have hN : cfg0.N = 25 := N_0
  refine (dat0 (F := Ideal) V c).arrAt_eq_of_cover 2 _ (fun t hf => ?_) (fun i => ?_)
  · have h24 : t.val = 24 := by have := (flush0_2 t).mp hf; have := t.isLt; omega
    obtain rfl : t = ⟨24, lastPt⟩ := Fin.ext h24
    show (cfg0.win 2).cut (grid0.coords ⟨24, lastPt⟩) ((dat0 (F := Ideal) V c).after 2 ⟨24, lastPt⟩) = _
    rw [after0_2, acc0_1_last V x B c hx hB]
    have hz' : (fun a => win0_2.index ⟨24, lastPt⟩ a * main_v0_0.ty.shape.size a) = fun _ => 0 :=
      funext fun a => by rw [(out_index0 _ a).1, Nat.zero_mul]
    exact (Memref.read_access_unit_zero (Elt Ideal) main_v0_0 hz' (fun a => by rw [congrFun hz' a]; simp) _).symm
  · refine ⟨⟨24, lastPt⟩, (flush0_2 _).mpr rfl, ?_⟩
    show i ∈ ((View.whole main_v0_0).slice (win0_2.rect ⟨24, lastPt⟩)).set
    rw [View.set_slice_whole, Rect.mem_set_unit]
    intro a
    have h0 : (i 0 : Nat) < 128 := (i 0).isLt
    have h1 : (i 1 : Nat) < 4096 := (i 1).isLt
    match a with
    | ⟨0, _⟩ => show win0_2.index ⟨24, lastPt⟩ 0 * win0_2.size 0 ≤ (i 0 : Nat) ∧ (i 0 : Nat) < win0_2.index ⟨24, lastPt⟩ 0 * win0_2.size 0 + win0_2.xsize (grid0.coords ⟨24, lastPt⟩) 0
                rw [(out_index0 _ 0).1, show win0_2.xsize (grid0.coords ⟨24, lastPt⟩) 0 = 128 from rfl]; omega
    | ⟨1, _⟩ => show win0_2.index ⟨24, lastPt⟩ 1 * win0_2.size 1 ≤ (i 1 : Nat) ∧ (i 1 : Nat) < win0_2.index ⟨24, lastPt⟩ 1 * win0_2.size 1 + win0_2.xsize (grid0.coords ⟨24, lastPt⟩) 1
                rw [(out_index0 _ 1).1, show win0_2.xsize (grid0.coords ⟨24, lastPt⟩) 1 = 4096 from rfl]; omega

/-- The column sums' array after the first pass. -/
theorem arrAt0_3 (c : Dev nD) (hx : V c main_arg0 = x) (hB : V c main_arg1 = B) :
    (dat0 (F := Ideal) V c).arrAt 3 cfg0.N = fun i : S1x4096.Idx => colSum B (i 1) := by
  have hN : cfg0.N = 25 := N_0
  refine (dat0 (F := Ideal) V c).arrAt_eq_of_cover 3 _ (fun t hf => ?_) (fun i => ?_)
  · have h24 : t.val = 24 := by have := (flush0_3 t).mp hf; have := t.isLt; omega
    obtain rfl : t = ⟨24, lastPt⟩ := Fin.ext h24
    show (cfg0.win 3).cut (grid0.coords ⟨24, lastPt⟩) ((dat0 (F := Ideal) V c).after 3 ⟨24, lastPt⟩) = _
    rw [after0_3, acc0_2_last V B c hB]
    have hz' : (fun a => win0_3.index ⟨24, lastPt⟩ a * main_v0_1.ty.shape.size a) = fun _ => 0 :=
      funext fun a => by rw [(out_index0 _ a).2.1, Nat.zero_mul]
    exact (Memref.read_access_unit_zero (Elt Ideal) main_v0_1 hz' (fun a => by rw [congrFun hz' a]; simp) _).symm
  · refine ⟨⟨24, lastPt⟩, (flush0_3 _).mpr rfl, ?_⟩
    show i ∈ ((View.whole main_v0_1).slice (win0_3.rect ⟨24, lastPt⟩)).set
    rw [View.set_slice_whole, Rect.mem_set_unit]
    intro a
    have h0 : (i 0 : Nat) < 1 := (i 0).isLt
    have h1 : (i 1 : Nat) < 4096 := (i 1).isLt
    match a with
    | ⟨0, _⟩ => show win0_3.index ⟨24, lastPt⟩ 0 * win0_3.size 0 ≤ (i 0 : Nat) ∧ (i 0 : Nat) < win0_3.index ⟨24, lastPt⟩ 0 * win0_3.size 0 + win0_3.xsize (grid0.coords ⟨24, lastPt⟩) 0
                rw [(out_index0 _ 0).2.1, show win0_3.xsize (grid0.coords ⟨24, lastPt⟩) 0 = 1 from rfl]; omega
    | ⟨1, _⟩ => show win0_3.index ⟨24, lastPt⟩ 1 * win0_3.size 1 ≤ (i 1 : Nat) ∧ (i 1 : Nat) < win0_3.index ⟨24, lastPt⟩ 1 * win0_3.size 1 + win0_3.xsize (grid0.coords ⟨24, lastPt⟩) 1
                rw [(out_index0 _ 1).2.1, show win0_3.xsize (grid0.coords ⟨24, lastPt⟩) 1 = 4096 from rfl]; omega

/-- The weighted column sums' array after the first pass. -/
theorem arrAt0_4 (c : Dev nD) (hx : V c main_arg0 = x) (hB : V c main_arg1 = B) :
    (dat0 (F := Ideal) V c).arrAt 4 cfg0.N = fun i : S1x4096.Idx => wSum' B (i 1) := by
  have hN : cfg0.N = 25 := N_0
  refine (dat0 (F := Ideal) V c).arrAt_eq_of_cover 4 _ (fun t hf => ?_) (fun i => ?_)
  · have h24 : t.val = 24 := by have := (flush0_4 t).mp hf; have := t.isLt; omega
    obtain rfl : t = ⟨24, lastPt⟩ := Fin.ext h24
    show (cfg0.win 4).cut (grid0.coords ⟨24, lastPt⟩) ((dat0 (F := Ideal) V c).after 4 ⟨24, lastPt⟩) = _
    rw [after0_4, acc0_3_last V B c hB]
    have hz' : (fun a => win0_4.index ⟨24, lastPt⟩ a * main_v0_2.ty.shape.size a) = fun _ => 0 :=
      funext fun a => by rw [(out_index0 _ a).2.2, Nat.zero_mul]
    exact (Memref.read_access_unit_zero (Elt Ideal) main_v0_2 hz' (fun a => by rw [congrFun hz' a]; simp) _).symm
  · refine ⟨⟨24, lastPt⟩, (flush0_4 _).mpr rfl, ?_⟩
    show i ∈ ((View.whole main_v0_2).slice (win0_4.rect ⟨24, lastPt⟩)).set
    rw [View.set_slice_whole, Rect.mem_set_unit]
    intro a
    have h0 : (i 0 : Nat) < 1 := (i 0).isLt
    have h1 : (i 1 : Nat) < 4096 := (i 1).isLt
    match a with
    | ⟨0, _⟩ => show win0_4.index ⟨24, lastPt⟩ 0 * win0_4.size 0 ≤ (i 0 : Nat) ∧ (i 0 : Nat) < win0_4.index ⟨24, lastPt⟩ 0 * win0_4.size 0 + win0_4.xsize (grid0.coords ⟨24, lastPt⟩) 0
                rw [(out_index0 _ 0).2.2, show win0_4.xsize (grid0.coords ⟨24, lastPt⟩) 0 = 1 from rfl]; omega
    | ⟨1, _⟩ => show win0_4.index ⟨24, lastPt⟩ 1 * win0_4.size 1 ≤ (i 1 : Nat) ∧ (i 1 : Nat) < win0_4.index ⟨24, lastPt⟩ 1 * win0_4.size 1 + win0_4.xsize (grid0.coords ⟨24, lastPt⟩) 1
                rw [(out_index0 _ 1).2.2, show win0_4.xsize (grid0.coords ⟨24, lastPt⟩) 1 = 4096 from rfl]; omega

end Cert.KernelIdeal.Hand

end
-- ==== Proof.PassTwoValue.lean ====
import proofs.«168818_g910533067196_cont_9to1c4b_380_8_alg».proof.Proof.PassTwo
import proofs.«168818_g910533067196_cont_9to1c4b_380_8_alg».proof.Proof.Layer
import proofs.«168818_g910533067196_cont_9to1c4b_380_8_alg».proof.Proof.LibLastAxis
import Idealize.ShloMosaic.Lib.Pipeline.Value
import Idealize.ShloMosaic.Lib.ValueIdx
import Idealize.ShloMosaic.Lib.ValueLayout
import Idealize.ShloMosaic.PureOps.Ideal.Laws

/-!
# What the second pass leaves, on the extended reals

Entered with the message table, the column sums and the weighted column sums in their arrays and the weight
transposed, the second pass writes block `t`'s 400 rows of the result at every point; the 25 blocks tile the
array, so the array ends as one function of the arguments: `Cert.Layer.kerOut`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Layer

variable (V : (c : Dev nD) → (b : Ref sig .tc) → Buf (Elt Ideal) ((c : Thread nD τ).loc b))
variable (x : SX.Idx → EReal) (B : SB.Idx → EReal) (W : SW.Idx → EReal)

/-! ## The scaled message table at an entry -/

/-- The scaled message table at an entry: the message table's entry times its column's factor. -/
theorem scaledTable_apply (v29 v31 : Vec Ideal S1x4096 .f32) (v35 : Vec Ideal S128x4096 .f32) (d : Fin 128) (e : Fin 4096) :
    k1_pay1 (F := Ideal) v29 v31 v35 (ix2 d e)
      = v35 (ix2 d e) * Ideal.rsqrt (Ideal.div (v29 (ix2 (0 : Fin 1) e)) (v31 (ix2 (0 : Fin 1) e))) := by
  unfold k1_pay1
  simp only [shapeCast_self]
  show v35 (ix2 d e) * broadcastTo S128x4096 (rsqrt (divf v29 v31) : FVec Ideal S1x4096 .f32) broadcasts_S1x4096_S128x4096 (ix2 d e) = _
  refine congrArg (v35 (ix2 d e) * ·) ?_
  refine (broadcastTo_apply (rsqrt (divf v29 v31) : FVec Ideal S1x4096 .f32) broadcasts_S1x4096_S128x4096 (ix2 d e) (ix2 (0 : Fin 1) e) fun a => ?_).trans rfl
  match a with
  | ⟨0, _⟩ => rfl
  | ⟨1, _⟩ => rfl

/-! ## The two matrix products of the pass at an entry -/

theorem tabDot_lhs_0 (i : S400x128.Idx) (q : dot_S400x4096_S128x4096_S400x128_1_1_0_0_n_n.contr.Idx) :
    (dot_S400x4096_S128x4096_S400x128_1_1_0_0_n_n.lhsIdx i q 0).val = (i 0).val := by
  unfold DotDims.lhsIdx
  rw [dif_neg (show ¬(0 : Fin S400x4096.rank) ∈ dot_S400x4096_S128x4096_S400x128_1_1_0_0_n_n.lhsBatch by decide), dif_pos (show (0 : Fin S400x4096.rank) ∈ dot_S400x4096_S128x4096_S400x128_1_1_0_0_n_n.lhsNonContracting by decide)]
  rfl
theorem tabDot_lhs_1 (i : S400x128.Idx) (q : dot_S400x4096_S128x4096_S400x128_1_1_0_0_n_n.contr.Idx) :
    (dot_S400x4096_S128x4096_S400x128_1_1_0_0_n_n.lhsIdx i q 1).val = (q ⟨0, by decide⟩).val :=
  dot_S400x4096_S128x4096_S400x128_1_1_0_0_n_n.lhsIdx_val_of_single rfl i q
theorem tabDot_rhs_0 (i : S400x128.Idx) (q : dot_S400x4096_S128x4096_S400x128_1_1_0_0_n_n.contr.Idx) :
    (dot_S400x4096_S128x4096_S400x128_1_1_0_0_n_n.rhsIdx i q 0).val = (i 1).val := by
  unfold DotDims.rhsIdx
  rw [dif_neg (show ¬(0 : Fin S128x4096.rank) ∈ dot_S400x4096_S128x4096_S400x128_1_1_0_0_n_n.rhsBatch by decide), dif_pos (show (0 : Fin S128x4096.rank) ∈ dot_S400x4096_S128x4096_S400x128_1_1_0_0_n_n.rhsNonContracting by decide)]
  rfl
theorem tabDot_rhs_1 (i : S400x128.Idx) (q : dot_S400x4096_S128x4096_S400x128_1_1_0_0_n_n.contr.Idx) :
    (dot_S400x4096_S128x4096_S400x128_1_1_0_0_n_n.rhsIdx i q 1).val = (q ⟨0, by decide⟩).val :=
  dot_S400x4096_S128x4096_S400x128_1_1_0_0_n_n.rhsIdx_val_of_single rfl i q

/-- The product of a block of rows with the table, both contracted along their 4096 columns, into a zero accumulator. -/
theorem tabDot_apply (l : FVec Ideal S400x4096 .bf16) (r : FVec Ideal S128x4096 .bf16) (p : Fin 400) (d : Fin 128) :
    FloatOps.matmul dot_S400x4096_S128x4096_S400x128_1_1_0_0_n_n none l r (constant (F := Ideal) S400x128 .f32 0x00000000#32) (ix2 p d)
      = ∑ e : Fin 4096, l (ix2 p e) * r (ix2 d e) := by
  rw [Ideal.matmul_constant_zero_apply, ← Equiv.sum_comp (contrEquiv1 dot_S400x4096_S128x4096_S400x128_1_1_0_0_n_n 4096 rfl rfl).symm]
  refine Finset.sum_congr rfl fun k _ => ?_
  have hk := contrEquiv1_symm_val dot_S400x4096_S128x4096_S400x128_1_1_0_0_n_n 4096 rfl rfl k
  have el : dot_S400x4096_S128x4096_S400x128_1_1_0_0_n_n.lhsIdx (ix2 p d) ((contrEquiv1 dot_S400x4096_S128x4096_S400x128_1_1_0_0_n_n 4096 rfl rfl).symm k) = ix2 p k := funext fun a => Fin.ext (by
    match a with
    | ⟨0, _⟩ => exact tabDot_lhs_0 _ _
    | ⟨1, _⟩ => exact (tabDot_lhs_1 _ _).trans hk)
  have er : dot_S400x4096_S128x4096_S400x128_1_1_0_0_n_n.rhsIdx (ix2 p d) ((contrEquiv1 dot_S400x4096_S128x4096_S400x128_1_1_0_0_n_n 4096 rfl rfl).symm k) = ix2 d k := funext fun a => Fin.ext (by
    match a with
    | ⟨0, _⟩ => exact tabDot_rhs_0 _ _
    | ⟨1, _⟩ => exact (tabDot_rhs_1 _ _).trans hk)
  rw [el, er]

theorem wgtDot_lhs_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem wgtDot_lhs_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem wgtDot_rhs_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem wgtDot_rhs_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The product of a block of combined rows with the square weight, into a zero accumulator. -/
theorem wgtDot_apply (l : FVec Ideal S400x128 .bf16) (r : FVec Ideal S128x128 .bf16) (p : Fin 400) (j : Fin 128) :
    FloatOps.matmul dot_S400x128_S128x128_S400x128_1_0_0_1_n_n none l r (constant (F := Ideal) S400x128 .f32 0x00000000#32) (ix2 p j)
      = ∑ k : Fin 128, l (ix2 p k) * r (ix2 k j) := by
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p j) ((contrEquiv1 dot_S400x128_S128x128_S400x128_1_0_0_1_n_n 128 rfl rfl).symm k) = ix2 p k := funext fun a => Fin.ext (by
    match a with
    | ⟨0, _⟩ => exact wgtDot_lhs_0 _ _
    | ⟨1, _⟩ => exact (wgtDot_lhs_1 _ _).trans hk)
  have er : dot_S400x128_S128x128_S400x128_1_0_0_1_n_n.rhsIdx (ix2 p j) ((contrEquiv1 dot_S400x128_S128x128_S400x128_1_0_0_1_n_n 128 rfl rfl).symm k) = ix2 k j := funext fun a => Fin.ext (by
    match a with
    | ⟨0, _⟩ => exact (wgtDot_rhs_0 _ _).trans hk
    | ⟨1, _⟩ => exact wgtDot_rhs_1 _ _)
  rw [el, er]

/-! ## The rows of the result at an entry -/

/-- The kept column of row sums, its reciprocal square root spread over the 128 features, at an entry. -/
theorem rowRsqrt_apply (v3 : Vec Ideal S400x4096 .f32) (p : Fin 400) (d : Fin 128) :
    broadcastTo S400x128 (rsqrt (shapeCast S400x1 (multiReduction (F := Ideal) .add [1] S400 v3 0x00000000#32 reduces_S400x4096_S400 (.inl rfl) rfl) shapeCasts_S400_S400x1) : FVec Ideal S400x1 .f32) broadcasts_S400x1_S400x128 (ix2 p d)
      = Ideal.rsqrt (∑ e : Fin 4096, v3 (ix2 p e)) := by
  refine (Cert.LastAxis.broadcastTo_a1_ab_apply _ broadcasts_S400x1_S400x128 p d).trans ?_
  show Ideal.rsqrt (shapeCast S400x1 (multiReduction (F := Ideal) .add [1] S400 v3 0x00000000#32 reduces_S400x4096_S400 (.inl rfl) rfl) shapeCasts_S400_S400x1 (ix2 p (0 : Fin 1))) = _
  refine congrArg Ideal.rsqrt ?_
  refine (Cert.LastAxis.shapeCast_a_a1_apply _ shapeCasts_S400_S400x1 p 0).trans ?_
  exact Cert.LastAxis.rowSum_apply v3 _ reduces_S400x4096_S400 (.inl rfl) rfl p

/-- One entry of a block's combined rows, from the block of the incidence matrix, the scaled table and the block's
    feature rows: `(9/10)ᶠ · ((∑ₑ Bₜ p e · T d e) · (∑ₑ Bₜ p e)^(-1/2)) + (1/10)ᶠ · xₜ p d`. -/
def combBlk (v3 : Vec Ideal S400x4096 .f32) (v7 : Vec Ideal S128x4096 .bf16) (v14 : Vec Ideal S400x128 .f32)
    (p : Fin 400) (d : Fin 128) : EReal :=
  c09 * ((∑ e : Fin 4096, v3 (ix2 p e) * v7 (ix2 d e)) * Ideal.rsqrt (∑ e : Fin 4096, v3 (ix2 p e))) + c01 * v14 (ix2 p d)

/-- The block's combined rows as the pass forms them, operation by operation. -/
def combVec (v3 : Vec Ideal S400x4096 .f32) (v7 : Vec Ideal S128x4096 .bf16) (v14 : Vec Ideal S400x128 .f32) :
    FVec Ideal S400x128 .f32 :=
  addf
    (mulf (broadcast S400x128 (Ideal.ofBits .f32 0x3F666666#32))
      (mulf
        (FloatOps.matmul (φ₁ := .bf16) (φ₂ := .bf16) dot_S400x4096_S128x4096_S400x128_1_1_0_0_n_n none (truncf .bf16 v3 bitsLt_bf16_f32) v7
          (constant (F := Ideal) S400x128 .f32 0x00000000#32))
        (broadcastTo S400x128
          (rsqrt (shapeCast S400x1 (multiReduction (F := Ideal) .add [1] S400 v3 0x00000000#32 reduces_S400x4096_S400 (.inl rfl) rfl) shapeCasts_S400_S400x1) : FVec Ideal S400x1 .f32)
          broadcasts_S400x1_S400x128)))
    (mulf (broadcast S400x128 (Ideal.ofBits .f32 0x3DCCCCCD#32)) v14)

theorem combVec_apply (v3 : Vec Ideal S400x4096 .f32) (v7 : Vec Ideal S128x4096 .bf16) (v14 : Vec Ideal S400x128 .f32)
    (p : Fin 400) (d : Fin 128) : combVec v3 v7 v14 (ix2 p d) = combBlk v3 v7 v14 p d := by
  show c09 * (FloatOps.matmul (φ₁ := .bf16) (φ₂ := .bf16) dot_S400x4096_S128x4096_S400x128_1_1_0_0_n_n none (truncf .bf16 v3 bitsLt_bf16_f32) v7
          (constant (F := Ideal) S400x128 .f32 0x00000000#32) (ix2 p d)
        * broadcastTo S400x128
          (rsqrt (shapeCast S400x1 (multiReduction (F := Ideal) .add [1] S400 v3 0x00000000#32 reduces_S400x4096_S400 (.inl rfl) rfl) shapeCasts_S400_S400x1) : FVec Ideal S400x1 .f32)
          broadcasts_S400x1_S400x128 (ix2 p d)) + c01 * v14 (ix2 p d) = _
  rw [tabDot_apply, rowRsqrt_apply]
  rfl

/-- The rows of the result at an entry: half the combined entry plus half its row against the weight. -/
theorem resultRows_apply (v3 : Vec Ideal S400x4096 .f32) (v7 : Vec Ideal S128x4096 .bf16) (v14 : Vec Ideal S400x128 .f32)
    (v21 : Vec Ideal S128x128 .f32) (p : Fin 400) (j : Fin 128) :
    k1_pay2 (F := Ideal) v3 v7 v14 v21 (ix2 p j)
      = c05 * combBlk v3 v7 v14 p j + c05 * ∑ k : Fin 128, combBlk v3 v7 v14 p k * v21 (ix2 k j) := by
  unfold k1_pay2
  simp only [shapeCast_self]
  show c05 * combVec v3 v7 v14 (ix2 p j)
      + c05 * FloatOps.matmul (φ₁ := .bf16) (φ₂ := .bf16) dot_S400x128_S128x128_S400x128_1_0_0_1_n_n none (truncf .bf16 (combVec v3 v7 v14) bitsLt_bf16_f32)
          (truncf .bf16 v21 bitsLt_bf16_f32) (constant (F := Ideal) S400x128 .f32 0x00000000#32) (ix2 p j) = _
  rw [wgtDot_apply, combVec_apply]
  refine congrArg (fun s => c05 * combBlk v3 v7 v14 p j + c05 * s) (Finset.sum_congr rfl fun k _ => ?_)
  show combVec v3 v7 v14 (ix2 p k) * v21 (ix2 k j) = _
  rw [combVec_apply]

/-! ## The blocks the pass reads, as rows of its arrays -/

/-- The windows' index maps over the grid: the three moving windows sit at block `(t, 0)`, the four whole ones at `(0, 0)`. -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point `t` is rows `400 t … 400 t + 399` of the incidence matrix. -/
theorem iblk1_0_apply (c : Dev nD) (hB : V c main_arg1 = B) (t : Fin cfg1.N) (p : Fin 400) (e : Fin 4096)
    (n : Fin 10000) (hn : n.val = 400 * t.val + p.val) :
    (iblk1 V c 0 t : Vec Ideal S400x4096 .f32) (ix2 p e) = B (ix2 n e) := by
  obtain ⟨e0, e1, -⟩ := idx_facts1 t
  unfold iblk1
  rw [View.read_apply]
  show V c main_arg1 _ = _
  rw [hB]
  refine congrArg B (funext fun a => Fin.ext ?_)
  match a with
  | ⟨0, _⟩ => show win1_0.index t (0 : Fin 2) * 400 + 1 * p.val = n.val; rw [e0, hn]; omega
  | ⟨1, _⟩ => show win1_0.index t (1 : Fin 2) * 4096 + 1 * e.val = e.val; rw [e1]; omega

/-- Window 1's block at point `t` is rows `400 t … 400 t + 399` of the features. -/
theorem iblk1_1_apply (c : Dev nD) (hx : V c main_arg0 = x) (t : Fin cfg1.N) (p : Fin 400) (d : Fin 128)
    (n : Fin 10000) (hn : n.val = 400 * t.val + p.val) :
    (iblk1 V c 1 t : Vec Ideal S400x128 .f32) (ix2 p d) = x (ix2 n d) := by
  obtain ⟨-, -, e0, e1, -⟩ := idx_facts1 t
  unfold iblk1
  rw [View.read_apply]
  show V c main_arg0 _ = _
  rw [hx]
  refine congrArg x (funext fun a => Fin.ext ?_)
  match a with
  | ⟨0, _⟩ => show win1_1.index t (0 : Fin 2) * 400 + 1 * p.val = n.val; rw [e0, hn]; omega
  | ⟨1, _⟩ => show win1_1.index t (1 : Fin 2) * 128 + 1 * d.val = d.val; rw [e1]; omega

/-- Window 2's block is the whole message table, at every point. -/
theorem iblk1_2_apply (c : Dev nD) (hM : V c main_v0_0 = fun i : S128x4096.Idx => msgT x B (i 0) (i 1))
    (t : Fin cfg1.N) (d : Fin 128) (e : Fin 4096) :
    (iblk1 V c 2 t : Vec Ideal S128x4096 .f32) (ix2 d e) = msgT x B d e := by
  obtain ⟨-, -, -, -, e0, e1, -⟩ := idx_facts1 t
  unfold iblk1
  rw [View.read_apply]
  show V c main_v0_0 _ = _
  rw [hM]
  refine congrArg (fun i : S128x4096.Idx => msgT x B (i 0) (i 1)) (a₂ := ix2 d e) (funext fun a => Fin.ext ?_)
  match a with
  | ⟨0, _⟩ => show win1_2.index t (0 : Fin 2) * 128 + 1 * d.val = d.val; rw [e0]; omega
  | ⟨1, _⟩ => show win1_2.index t (1 : Fin 2) * 4096 + 1 * e.val = e.val; rw [e1]; omega

/-- Window 3's block is the whole row of column sums, at every point. -/
theorem iblk1_3_apply (c : Dev nD) (hC : V c main_v0_1 = fun i : S1x4096.Idx => colSum B (i 1))
    (t : Fin cfg1.N) (e : Fin 4096) :
    (iblk1 V c 3 t : Vec Ideal S1x4096 .f32) (ix2 (0 : Fin 1) e) = colSum B e := by
  obtain ⟨-, -, -, -, -, -, e0, e1, -⟩ := idx_facts1 t
  unfold iblk1
  rw [View.read_apply]
  show V c main_v0_1 _ = _
  rw [hC]
  refine congrArg (fun i : S1x4096.Idx => colSum B (i 1)) (a₂ := ix2 (0 : Fin 1) e) (funext fun a => Fin.ext ?_)
  match a with
  | ⟨0, _⟩ => show win1_3.index t (0 : Fin 2) * 1 + 1 * 0 = 0; rw [e0]
  | ⟨1, _⟩ => show win1_3.index t (1 : Fin 2) * 4096 + 1 * e.val = e.val; rw [e1]; omega

/-- Window 4's block is the whole row of weighted column sums, at every point. -/
theorem iblk1_4_apply (c : Dev nD) (hS : V c main_v0_2 = fun i : S1x4096.Idx => wSum' B (i 1))
    (t : Fin cfg1.N) (e : Fin 4096) :
    (iblk1 V c 4 t : Vec Ideal S1x4096 .f32) (ix2 (0 : Fin 1) e) = wSum' B e := by
  obtain ⟨-, -, -, -, -, -, -, -, e0, e1, -⟩ := idx_facts1 t
  unfold iblk1
  rw [View.read_apply]
  show V c main_v0_2 _ = _
  rw [hS]
  refine congrArg (fun i : S1x4096.Idx => wSum' B (i 1)) (a₂ := ix2 (0 : Fin 1) e) (funext fun a => Fin.ext ?_)
  match a with
  | ⟨0, _⟩ => show win1_4.index t (0 : Fin 2) * 1 + 1 * 0 = 0; rw [e0]
  | ⟨1, _⟩ => show win1_4.index t (1 : Fin 2) * 4096 + 1 * e.val = e.val; rw [e1]; omega

/-- Window 5's block is the whole transposed weight, at every point. -/
theorem iblk1_5_apply (c : Dev nD) (hWt : V c main_v1 = fun i : S128x128.Idx => W (ix2 (i 1) (i 0)))
    (t : Fin cfg1.N) (k j : Fin 128) :
    (iblk1 V c 5 t : Vec Ideal S128x128 .f32) (ix2 k j) = W (ix2 j k) := by
  obtain ⟨-, -, -, -, -, -, -, -, -, -, e0, e1, -⟩ := idx_facts1 t
  unfold iblk1
  rw [View.read_apply]
  show V c main_v1 _ = _
  rw [hWt]
  refine congrArg (fun i : S128x128.Idx => W (ix2 (i 1) (i 0))) (a₂ := ix2 k j) (funext fun a => Fin.ext ?_)
  match a with
  | ⟨0, _⟩ => show win1_5.index t (0 : Fin 2) * 128 + 1 * k.val = k.val; rw [e0]; omega
  | ⟨1, _⟩ => show win1_5.index t (1 : Fin 2) * 128 + 1 * j.val = j.val; rw [e1]; omega

/-! ## What a point forms, as rows of the layer's result -/

/-- The scratch holds the scaled message table. -/
theorem tbl1_apply (c : Dev nD) (hM : V c main_v0_0 = fun i : S128x4096.Idx => msgT x B (i 0) (i 1))
    (hC : V c main_v0_1 = fun i : S1x4096.Idx => colSum B (i 1))
    (hS : V c main_v0_2 = fun i : S1x4096.Idx => wSum' B (i 1)) (d : Fin 128) (e : Fin 4096) :
    (tbl1 V c : Vec Ideal S128x4096 .bf16) (ix2 d e) = scaled x B d e := by
  unfold tbl1
  refine (scaledTable_apply (iblk1 V c 4 t0) (iblk1 V c 3 t0) (iblk1 V c 2 t0) d e).trans ?_
  rw [iblk1_2_apply V x B c hM t0 d e, iblk1_3_apply V B c hC t0 e, iblk1_4_apply V B c hS t0 e]
  rfl

/-- A block's combined rows are the layer's combined rows `400 t … 400 t + 399`. -/
theorem combBlk_eq (c : Dev nD) (hx : V c main_arg0 = x) (hB : V c main_arg1 = B)
    (hM : V c main_v0_0 = fun i : S128x4096.Idx => msgT x B (i 0) (i 1))
    (hC : V c main_v0_1 = fun i : S1x4096.Idx => colSum B (i 1))
    (hS : V c main_v0_2 = fun i : S1x4096.Idx => wSum' B (i 1))
    (t : Fin cfg1.N) (p : Fin 400) (d : Fin 128) (n : Fin 10000) (hn : n.val = 400 * t.val + p.val) :
    combBlk (iblk1 V c 0 t) (tbl1 V c) (iblk1 V c 1 t) p d = kerComb x B n d := by
  have h0 : ∀ e : Fin 4096, (iblk1 V c 0 t : Vec Ideal S400x4096 .f32) (ix2 p e) = B (ix2 n e) :=
    fun e => iblk1_0_apply V B c hB t p e n hn
  have hT : ∀ e : Fin 4096, (tbl1 V c : Vec Ideal S128x4096 .bf16) (ix2 d e) = scaled x B d e :=
    fun e => tbl1_apply V x B c hM hC hS d e
  have h1 : (iblk1 V c 1 t : Vec Ideal S400x128 .f32) (ix2 p d) = x (ix2 n d) := iblk1_1_apply V x c hx t p d n hn
  unfold combBlk kerComb kerBack nodeDeg
  simp only [h0, hT, h1]

/-- The rows point `t` forms are rows `400 t … 400 t + 399` of the layer's result. -/
theorem out1_apply (c : Dev nD) (hx : V c main_arg0 = x) (hB : V c main_arg1 = B)
    (hWt : V c main_v1 = fun i : S128x128.Idx => W (ix2 (i 1) (i 0)))
    (hM : V c main_v0_0 = fun i : S128x4096.Idx => msgT x B (i 0) (i 1))
    (hC : V c main_v0_1 = fun i : S1x4096.Idx => colSum B (i 1))
    (hS : V c main_v0_2 = fun i : S1x4096.Idx => wSum' B (i 1))
    (t : Fin cfg1.N) (p : Fin 400) (j : Fin 128) (n : Fin 10000) (hn : n.val = 400 * t.val + p.val) :
    (out1 V c t : Vec Ideal S400x128 .f32) (ix2 p j) = kerOut x B W (ix2 n j) := by
  unfold out1
  refine (resultRows_apply (iblk1 V c 0 t) (tbl1 V c) (iblk1 V c 1 t) (iblk1 V c 5 t) p j).trans ?_
  have hc : ∀ d : Fin 128, combBlk (iblk1 V c 0 t) (tbl1 V c) (iblk1 V c 1 t) p d = kerComb x B n d :=
    fun d => combBlk_eq V x B c hx hB hM hC hS t p d n hn
  have h5 : ∀ k : Fin 128, (iblk1 V c 5 t : Vec Ideal S128x128 .f32) (ix2 k j) = W (ix2 j k) :=
    fun k => iblk1_5_apply V W c hWt t k j
  simp only [hc, h5]
  rfl

/-! ## From the blocks to the array -/

/-- What point `t` writes back is block `t` of the layer's result. -/
theorem flushed1_6_eq (c : Dev nD) (hx : V c main_arg0 = x) (hB : V c main_arg1 = B)
    (hWt : V c main_v1 = fun i : S128x128.Idx => W (ix2 (i 1) (i 0)))
    (hM : V c main_v0_0 = fun i : S128x4096.Idx => msgT x B (i 0) (i 1))
    (hC : V c main_v0_1 = fun i : S1x4096.Idx => colSum B (i 1))
    (hS : V c main_v0_2 = fun i : S1x4096.Idx => wSum' B (i 1)) (t : Fin cfg1.N) :
    (dat1 (F := Ideal) V c).flushed 6 t = ((cfg1.win 6).blk t).view.read (Elt Ideal) (kerOut x B W) := by
  show (cfg1.win 6).cut (grid1.coords t) ((dat1 V c).after 6 t) = _
  rw [after1_6]
  obtain ⟨-, -, -, -, -, -, -, -, -, -, -, -, e0, e1⟩ := idx_facts1 t
  have ht : t.val < 25 := lt_of_lt_of_eq t.isLt (show cfg1.N = 25 from N_1)
  funext y
  have hp : (y 0).val < 400 := (y 0).isLt
  have hj : (y 1).val < 128 := (y 1).isLt
  show (out1 V c t : Vec Ideal S400x128 .f32) y = kerOut x B W (((cfg1.win 6).blk t).view.emb y)
  refine (congrArg (out1 V c t : Vec Ideal S400x128 .f32) (eq_ix2 y)).trans ?_
  refine (out1_apply V x B W c hx hB hWt hM hC hS t (y 0) (y 1) ⟨400 * t.val + (y 0).val, by omega⟩ rfl).trans ?_
  refine congrArg (kerOut x B W) (funext fun a => Fin.ext ?_)
  match a with
  | ⟨0, _⟩ => show 400 * t.val + (y 0).val = win1_6.index t (0 : Fin 2) * 400 + 1 * (y 0).val; rw [e0]; omega
  | ⟨1, _⟩ => show (y 1).val = win1_6.index t (1 : Fin 2) * 128 + 1 * (y 1).val; rw [e1]; omega

/-- A row of the result array is in point `t`'s block iff each coordinate is in the block's range on its axis. -/
theorem mem_blk1_6 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v2).slice (win1_6.rect t)).set ↔ _
  rw [View.set_slice_whole, Rect.mem_set_unit]
  exact Iff.rfl

/-- The 25 blocks of 400 rows tile the array: row `r` is in the block of point `r / 400`. -/
theorem cover1_6 (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  obtain ⟨-, -, -, -, -, -, -, -, -, -, -, -, e0, e1⟩ := idx_facts1 t
  have e0' : win1_6.index t (0 : Fin 2) = (i 0).val / 400 := e0
  refine ⟨t, flush1_6 t, ?_⟩
  rw [mem_blk1_6]
  intro a
  match a with
  | ⟨0, _⟩ => show win1_6.index t (0 : Fin 2) * 400 ≤ (i 0).val ∧ (i 0).val < win1_6.index t (0 : Fin 2) * 400 + 400; rw [e0']; omega
  | ⟨1, _⟩ => show win1_6.index t (1 : Fin 2) * 128 ≤ (i 1).val ∧ (i 1).val < win1_6.index t (1 : Fin 2) * 128 + 128; rw [e1]; omega

/-- The result array after the second pass, from what the pass finds in its arrays. -/
theorem arrAt1_6 (c : Dev nD) (hx : V c main_arg0 = x) (hB : V c main_arg1 = B)
    (hWt : V c main_v1 = fun i : S128x128.Idx => W (ix2 (i 1) (i 0)))
    (hM : V c main_v0_0 = fun i : S128x4096.Idx => msgT x B (i 0) (i 1))
    (hC : V c main_v0_1 = fun i : S1x4096.Idx => colSum B (i 1))
    (hS : V c main_v0_2 = fun i : S1x4096.Idx => wSum' B (i 1)) :
    (dat1 (F := Ideal) V c).arrAt 6 cfg1.N = kerOut x B W :=
  (dat1 (F := Ideal) V c).arrAt_eq_of_cover 6 (kerOut x B W)
    (fun t _ => flushed1_6_eq V x B W c hx hB hWt hM hC hS t) cover1_6

end Cert.KernelIdeal.Hand

end
-- ==== Proof.KernelValue.lean ====
import proofs.«168818_g910533067196_cont_9to1c4b_380_8_alg».proof.Proof.MainRun
import proofs.«168818_g910533067196_cont_9to1c4b_380_8_alg».proof.Proof.PassOneValue
import proofs.«168818_g910533067196_cont_9to1c4b_380_8_alg».proof.Proof.PassTwoValue
import Idealize.ShloMosaic.Lib.StableHlo.Run

/-!
# The kernel's result as a function of its arguments

The second pass is entered with the features and the incidence matrix as launched (nobody writes them), the weight
transposed by the host's one operation, and the first pass's three totals in their arrays. With those read as
functions of the arguments, the result array ends at `Cert.Layer.kerOut` of the arguments.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Layer

variable (m : (ℓ : Loc nD τ sig) → Buf (Elt Ideal) ℓ)

/-- The three arguments on core `c`, as the layer's arrays. -/
abbrev argX (c : Dev nD) : SX.Idx → EReal := m ((c : Thread nD τ).loc main_arg0)
abbrev argB (c : Dev nD) : SB.Idx → EReal := m ((c : Thread nD τ).loc main_arg1)
abbrev argW (c : Dev nD) : SW.Idx → EReal := m ((c : Thread nD τ).loc main_arg2)

/-- The second pass finds the features as launched. -/
theorem V3_arg0 (c : Dev nD) : V3 m c main_arg0 = argX m c :=
  (W3_of_ne m c main_arg0 (by decide)).trans ((W2_arr m c 0).trans (((dat0 (V1 m) c).arrAt_in 0 rfl _).trans (A_eq0 (V1 m) c 0)))

/-- The second pass finds the incidence matrix as launched. -/
theorem V3_arg1 (c : Dev nD) : V3 m c main_arg1 = argB m c :=
  (W3_of_ne m c main_arg1 (by decide)).trans ((W2_arr m c 1).trans (((dat0 (V1 m) c).arrAt_in 1 rfl _).trans (A_eq0 (V1 m) c 1)))

/-- The second pass finds the transposed message table `(xᵀ B) d e` in the first total's array. -/
theorem V3_v0_0 (c : Dev nD) : V3 m c main_v0_0 = fun i : S128x4096.Idx => msgT (argX m c) (argB m c) (i 0) (i 1) :=
  (W3_of_ne m c main_v0_0 (by decide)).trans ((W2_arr m c 2).trans (arrAt0_2 (V1 m) (argX m c) (argB m c) c rfl rfl))

/-- The column sums in the second total's array. -/
theorem V3_v0_1 (c : Dev nD) : V3 m c main_v0_1 = fun i : S1x4096.Idx => colSum (argB m c) (i 1) :=
  (W3_of_ne m c main_v0_1 (by decide)).trans ((W2_arr m c 3).trans (arrAt0_3 (V1 m) (argX m c) (argB m c) c rfl rfl))

/-- The weighted column sums in the third total's array. -/
theorem V3_v0_2 (c : Dev nD) : V3 m c main_v0_2 = fun i : S1x4096.Idx => wSum' (argB m c) (i 1) :=
  (W3_of_ne m c main_v0_2 (by decide)).trans ((W2_arr m c 4).trans (arrAt0_4 (V1 m) (argX m c) (argB m c) c rfl rfl))

/-- The host's transposition: the second pass finds `Wᵀ`. -/
theorem V3_v1 (c : Dev nD) : V3 m c main_v1 = fun i : S128x128.Idx => argW m c (ix2 (i 1) (i 0)) := by
  have e : W3 m c (Proc.devRef .tc main_v1)
      = transpose S128x128 [1, 0] (W2 m c (Proc.devRef .tc main_arg2)) transposes_S128x128_S128x128_1_0 := by
    show StableHlo.after hostOps1 (W2 m c) (Proc.devRef .tc main_v1) = _
    after_results
  refine e.trans ?_
  rw [W2_of_ne m c main_arg2 (by decide)]
  funext i
  exact transpose_apply [1, 0] _ transposes_S128x128_S128x128_1_0 i (ix2 (i 1) (i 0)) (fun b => match b with
    | ⟨0, _⟩ => rfl
    | ⟨1, _⟩ => rfl)

/-- The result array after the second pass is the layer, read with the reciprocal square root. -/
theorem result_value (c : Dev nD) : (dat1 (V3 m) c).arrAt 6 cfg1.N = kerOut (argX m c) (argB m c) (argW m c) :=
  arrAt1_6 (V3 m) (argX m c) (argB m c) (argW m c) c (V3_arg0 m c) (V3_arg1 m c) (V3_v1 m c) (V3_v0_0 m c) (V3_v0_1 m c) (V3_v0_2 m c)

end Cert.KernelIdeal.Hand

end
-- ==== Proof.ReferenceLayer.lean ====
import proofs.«168818_g910533067196_cont_9to1c4b_380_8_alg».proof.Proof.Gen.ReferenceIdeal.Run
import proofs.«168818_g910533067196_cont_9to1c4b_380_8_alg».proof.Proof.Gen.ReferenceIdeal.Read
import proofs.«168818_g910533067196_cont_9to1c4b_380_8_alg».proof.Proof.Layer
import proofs.«168818_g910533067196_cont_9to1c4b_380_8_alg».proof.Proof.LibLastAxis
import Idealize.ShloMosaic.Lib.Pipeline.Value
import Idealize.ShloMosaic.Lib.ValueIdx
import Idealize.ShloMosaic.Lib.ValueLayout
import Idealize.ShloMosaic.PureOps.Ideal.Laws

/-!
# The reference computes the layer with the quotient `1 / √y`

Stage by stage the reference's host operations are the definitions of `Cert.Layer`: a transposition and a product
for the messages, a sum along each row for the node degrees, two sums down the columns and a quotient for the edge
degrees, `1 / √·` of both, the scaled product, the skip connection and the weighted half-sum. A host sum is its
zero initial value plus the plain sum; a host product contracts one axis.
-/

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Layer

variable (x : (⟨S10000x128, .f32⟩ : BufTy).Contents (Elt Ideal)) (B : (⟨S10000x4096, .f32⟩ : BufTy).Contents (Elt Ideal))
  (W : (⟨S128x128, .f32⟩ : BufTy).Contents (Elt Ideal))

/-- The float word of `1.0` denotes the number one. -/
theorem ofBits_one_f32 : Ideal.ofBits .f32 0x3F800000#32 = 1 := by
  simp [Ideal.ofBits, Ideal.ieee, -EReal.coe_mul]; norm_num

/-! ## The degrees -/

/-- The sum along row `n` of the incidence matrix, from the zero initial value, is the node degree. -/
theorem nodeDeg_stage (n : Fin 10000) : val_main_v2 (F := Ideal) B (ix1 n) = nodeDeg B n := by
  rw [val_main_v2_apply, val_main_cst_apply, Ideal.ofBits_def, Ideal.ofBits_zero_f32, zero_add]
  unfold nodeDeg
  exact Finset.sum_congr rfl fun e _ => congrArg B
    (funext fun a => Fin.ext (by match a with | ⟨0, _⟩ => rfl | ⟨1, _⟩ => rfl))

/-- The sum down column `e` of the incidence matrix is the column sum. -/
theorem colSum_stage (e : Fin 4096) : val_main_v7 (F := Ideal) B (ix1 e) = colSum B e := by
  rw [val_main_v7_apply, val_main_cst_1_apply, Ideal.ofBits_def, Ideal.ofBits_zero_f32, zero_add]
  unfold colSum
  exact Finset.sum_congr rfl fun n _ => congrArg B
    (funext fun a => Fin.ext (by match a with | ⟨0, _⟩ => rfl | ⟨1, _⟩ => rfl))

/-- The node degrees spread along the rows, times the incidence matrix, summed down column `e`. -/
theorem wSum_stage (e : Fin 4096) : val_main_v6 (F := Ideal) B (ix1 e) = wSum B e := by
  rw [val_main_v6_apply, val_main_cst_0_apply, Ideal.ofBits_def, Ideal.ofBits_zero_f32, zero_add]
  unfold wSum
  refine Finset.sum_congr rfl fun n _ => ?_
  have hi : idx_main_v6 (ix1 e) n = ix2 n e :=
    funext fun a => Fin.ext (by match a with | ⟨0, _⟩ => rfl | ⟨1, _⟩ => rfl)
  have hj : idx_main_v3 (idx_main_v4 (ix2 n e)) = ix1 n :=
    funext fun a => Fin.ext (by match a with | ⟨0, _⟩ => rfl)
  rw [hi, val_main_v5_apply, val_main_v4_apply, val_main_v3_apply, hj, nodeDeg_stage, Ideal.mulf_def]

/-- The quotient of the two column sums is the edge degree. -/
theorem edgeDeg_stage (e : Fin 4096) : val_main_v8 (F := Ideal) B (ix1 e) = edgeDeg B e := by
  rw [val_main_v8_apply, wSum_stage, colSum_stage, Ideal.hostDivf_def]
  rfl

/-! ## The messages -/

/-- The transposed incidence matrix times the features, at `(e, d)`. -/
theorem msg_stage (e : Fin 4096) (d : Fin 128) : val_main_v1 (F := Ideal) x B (ix2 e d) = msg x B e d := by
  rw [val_main_v1_apply]
  unfold msg
  refine Finset.sum_congr rfl fun n _ => ?_
  have hl : idx_main_v0 (lidx_main_v1 (ix2 e d) n) = ix2 n e :=
    funext fun a => Fin.ext (by match a with | ⟨0, _⟩ => rfl | ⟨1, _⟩ => rfl)
  have hr : ridx_main_v1 (ix2 e d) n = ix2 n d :=
    funext fun a => Fin.ext (by match a with | ⟨0, _⟩ => rfl | ⟨1, _⟩ => rfl)
  rw [val_main_v0_apply, hl, hr]

/-! ## One over the square root of each degree -/

theorem edgeInv_stage (e : Fin 4096) : val_main_v11 (F := Ideal) B (ix1 e) = refInv (edgeDeg B e) := by
  rw [val_main_v11_apply, val_main_v10_apply, val_main_cst_2_apply, val_main_v9_apply, edgeDeg_stage,
    Ideal.ofBits_def, ofBits_one_f32, Ideal.hostDivf_def, Ideal.hostUnary_sqrt_def]
  rfl

theorem nodeInv_stage (n : Fin 10000) : val_main_v17 (F := Ideal) B (ix1 n) = refInv (nodeDeg B n) := by
  rw [val_main_v17_apply, val_main_v16_apply, val_main_cst_3_apply, val_main_v15_apply, nodeDeg_stage,
    Ideal.ofBits_def, ofBits_one_f32, Ideal.hostDivf_def, Ideal.hostUnary_sqrt_def]
  rfl

/-! ## The edge-to-node messages -/

/-- The incidence matrix with column `e` scaled by `1 / √dₑ(e)`. -/
theorem scaledB_stage (n : Fin 10000) (e : Fin 4096) :
    val_main_v14 (F := Ideal) B (ix2 n e) = B (ix2 n e) * refInv (edgeDeg B e) := by
  have hj : idx_main_v12 (idx_main_v13 (ix2 n e)) = ix1 e :=
    funext fun a => Fin.ext (by match a with | ⟨0, _⟩ => rfl)
  rw [val_main_v14_apply, val_main_v13_apply, val_main_v12_apply, hj, edgeInv_stage, Ideal.mulf_def]

/-- The scaled incidence matrix times the message table, at `(n, d)`. -/
theorem inner_stage (n : Fin 10000) (d : Fin 128) :
    val_main_v19 (F := Ideal) x B (ix2 n d)
      = ∑ e : Fin 4096, (B (ix2 n e) * refInv (edgeDeg B e)) * msg x B e d := by
  rw [val_main_v19_apply]
  refine Finset.sum_congr rfl fun e _ => ?_
  have hl : lidx_main_v19 (ix2 n d) e = ix2 n e :=
    funext fun a => Fin.ext (by match a with | ⟨0, _⟩ => rfl | ⟨1, _⟩ => rfl)
  have hr : ridx_main_v19 (ix2 n d) e = ix2 e d :=
    funext fun a => Fin.ext (by match a with | ⟨0, _⟩ => rfl | ⟨1, _⟩ => rfl)
  rw [hl, hr, scaledB_stage, msg_stage]

theorem back_stage (n : Fin 10000) (d : Fin 128) :
    val_main_v21 (F := Ideal) x B (ix2 n d) = refBack x B n d := by
  have hj : idx_main_v18 (idx_main_v20 (ix2 n d)) = ix1 n :=
    funext fun a => Fin.ext (by match a with | ⟨0, _⟩ => rfl)
  rw [val_main_v21_apply, val_main_v20_apply, val_main_v18_apply, hj, nodeInv_stage, inner_stage, Ideal.mulf_def]
  rfl

/-! ## The skip connection and the weighted half-sum -/

theorem comb_stage (n : Fin 10000) (d : Fin 128) :
    val_main_v26 (F := Ideal) x B (ix2 n d) = refComb x B n d := by
  rw [val_main_v26_apply, val_main_v23_apply, val_main_v22_apply, val_main_cst_4_apply, back_stage,
    val_main_v25_apply, val_main_v24_apply, val_main_cst_5_apply, Ideal.ofBits_def, Ideal.ofBits_def,
    Ideal.mulf_def, Ideal.mulf_def, Ideal.addf_def]
  rfl

/-- The reference's last stage, as a function of the three arguments, is `refOut`. -/
theorem reference_is_layer (x : (⟨S10000x128, .f32⟩ : BufTy).Contents (Elt Ideal)) (B : (⟨S10000x4096, .f32⟩ : BufTy).Contents (Elt Ideal))
    (W : (⟨S128x128, .f32⟩ : BufTy).Contents (Elt Ideal)) :
    val_main_v33 (F := Ideal) x B W = refOut x B W := by
  funext i
  obtain ⟨n, j, rfl⟩ : ∃ (n : Fin 10000) (j : Fin 128), i = ix2 n j := ⟨i 0, i 1, eq_ix2 i⟩
  have hsum : val_main_v30 (F := Ideal) x B W (ix2 n j) = ∑ k : Fin 128, refComb x B n k * W (ix2 j k) := by
    rw [val_main_v30_apply]
    refine Finset.sum_congr rfl fun k _ => ?_
    have hl : lidx_main_v30 (ix2 n j) k = ix2 n k :=
      funext fun a => Fin.ext (by match a with | ⟨0, _⟩ => rfl | ⟨1, _⟩ => rfl)
    have hr : idx_main_v29 (ridx_main_v30 (ix2 n j) k) = ix2 j k :=
      funext fun a => Fin.ext (by match a with | ⟨0, _⟩ => rfl | ⟨1, _⟩ => rfl)
    rw [val_main_v29_apply, hl, hr, comb_stage]
  rw [val_main_v33_apply, val_main_v28_apply, val_main_v27_apply, val_main_cst_6_apply, comb_stage,
    val_main_v32_apply, val_main_v31_apply, val_main_cst_7_apply, hsum, Ideal.ofBits_def,
    Ideal.mulf_def, Ideal.mulf_def, Ideal.addf_def]
  rfl

end Cert.ReferenceIdeal.RefValue

end
-- ==== Proof.PreDegrees.lean ====
import proofs.«168818_g910533067196_cont_9to1c4b_380_8_alg».proof.Pre_finite_inputs
import proofs.«168818_g910533067196_cont_9to1c4b_380_8_alg».proof.Proof.Layer
import proofs.«168818_g910533067196_cont_9to1c4b_380_8_alg».proof.Proof.LibLastAxis
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

/-!
# What the precondition says of the degrees

The precondition is a conjunction of five all-quantified comparisons. Its last two say that every node degree and
every edge degree, computed as the reference computes them (a sum along each row; the quotient of two sums down the
columns), is at least zero. Read on the extended reals those are the hypotheses under which the reciprocal square
root and the quotient `1 / √·` agree.
-/

set_option maxRecDepth 16384

noncomputable section

namespace Cert.Precondition

open Idealize.ShloMosaic Idealize.ShloMosaic.ValueIdx Cert.Layer Cert.Pre_finite_inputs

variable [Cert.Pre_finite_inputs.Facts]
open Cert.Pre_finite_inputs.Facts

/-- The rank-zero shape has one index. -/
local instance : Subsingleton S_.Idx := ⟨fun a b => funext fun d => d.elim0⟩

/-- A sum along each row from zero, at row `n`: the sum of that row's entries. -/
theorem rowSum_from_zero (M : FVec Ideal S10000x4096 .f32) (n : Fin 10000) :
    Host.reduceAdd (F := Ideal) M (constant (F := Ideal) S_ .f32 0x00000000#32) reducesTo_S10000x4096_S10000_d1 h_S_ (ix1 n)
      = ∑ e : Fin 4096, M (ix2 n e) := by
  simp only [Host.reduceAdd, Ideal.hostReduceAdd_def]
  rw [Ideal.hostReduceAdd_single reducesTo_S10000x4096_S10000_d1 (by decide)]
  refine (congrArg (· + _) Ideal.ofBits_zero_f32).trans ?_
  rw [zero_add]
  refine Finset.sum_congr rfl fun k _ => ?_
  exact congrArg M (funext fun a => Fin.ext (by match a with | ⟨0, _⟩ => rfl | ⟨1, _⟩ => rfl))

/-- A sum down each column from zero, at column `e`: the sum of that column's entries. -/
theorem colSum_from_zero (M : FVec Ideal S10000x4096 .f32) (e : Fin 4096) :
    Host.reduceAdd (F := Ideal) M (constant (F := Ideal) S_ .f32 0x00000000#32) reducesTo_S10000x4096_S4096_d0 h_S_ (ix1 e)
      = ∑ n : Fin 10000, M (ix2 n e) := by
  simp only [Host.reduceAdd, Ideal.hostReduceAdd_def]
  rw [Ideal.hostReduceAdd_single reducesTo_S10000x4096_S4096_d0 (by decide)]
  refine (congrArg (· + _) Ideal.ofBits_zero_f32).trans ?_
  rw [zero_add]
  refine Finset.sum_congr rfl fun k _ => ?_
  exact congrArg M (funext fun a => Fin.ext (by match a with | ⟨0, _⟩ => rfl | ⟨1, _⟩ => rfl))

/-- A vector kept as a column and spread over each row's entries reads, at `(n, e)`, the vector at `n`. -/
theorem spread_apply (v : FVec Ideal S10000 .f32) (n : Fin 10000) (e : Fin 4096) :
    broadcastInDim S10000x4096 ![0, 1] bcast_S10000x1_S10000x4096_0_1
      (broadcastInDim S10000x1 ![0] bcast_S10000_S10000x1_0 v) (ix2 n e) = v (ix1 n) := by
  refine (broadcastInDim_apply _ bcast_S10000x1_S10000x4096_0_1 _ (ix2 n e) (ix2 n (0 : Fin 1)) (fun a => ?_)).trans ?_
  · match a with
    | ⟨0, _⟩ => show n.val = if (10000 : Nat) = 1 then 0 else n.val; rw [if_neg (by decide)]
    | ⟨1, _⟩ => rfl
  · refine broadcastInDim_apply _ bcast_S10000_S10000x1_0 v (ix2 n (0 : Fin 1)) (ix1 n) (fun a => ?_)
    match a with
    | ⟨0, _⟩ => show n.val = if (10000 : Nat) = 1 then 0 else n.val; rw [if_neg (by decide)]

/-- The zero scalar spread over any shape reads `0` everywhere. -/
theorem zeros_apply {t : Shape} (hb : S_.BroadcastsInDim t (![] : Fin 0 → Fin t.rank)) (j : t.Idx) :
    broadcastInDim t ![] hb (constant (F := Ideal) S_ .f32 0x00000000#32) j = (0 : EReal) := by
  show Ideal.ofBits .f32 0x00000000#32 = 0
  exact Ideal.ofBits_zero_f32

/-- The comparison "at least" of two extended reals comes out true exactly when the second is at most the first. -/
theorem oge_eq_one_iff (a b : Ideal .f32) : FloatOps.cmpf (F := Ideal) .oge a b = 1#1 ↔ b ≤ a := by
  rw [Ideal.cmpf_def]
  simp only [Ideal.cmp]
  rw [StableHlo.Predicate.ofBool_eq_one_iff, decide_eq_true_eq]

/-- The quotient of the degree-weighted column sum by the plain column sum, as the precondition computes it, is the
    edge degree. -/
theorem quotient_apply (B : FVec Ideal S10000x4096 .f32) (e : Fin 4096) :
    Host.divf (F := Ideal)
      (Host.reduceAdd (F := Ideal)
        (mulf
          (broadcastInDim S10000x4096 ![0, 1] bcast_S10000x1_S10000x4096_0_1
            (broadcastInDim S10000x1 ![0] bcast_S10000_S10000x1_0
              (Host.reduceAdd (F := Ideal) B (constant (F := Ideal) S_ .f32 0x00000000#32) reducesTo_S10000x4096_S10000_d1 h_S_)))
          B)
        (constant (F := Ideal) S_ .f32 0x00000000#32) reducesTo_S10000x4096_S4096_d0 h_S_)
      (Host.reduceAdd (F := Ideal) B (constant (F := Ideal) S_ .f32 0x00000000#32) reducesTo_S10000x4096_S4096_d0 h_S_) (ix1 e)
      = edgeDeg B e := by
  show Ideal.div (Host.reduceAdd (F := Ideal) _ _ reducesTo_S10000x4096_S4096_d0 h_S_ (ix1 e))
      (Host.reduceAdd (F := Ideal) B _ reducesTo_S10000x4096_S4096_d0 h_S_ (ix1 e)) = _
  rw [colSum_from_zero, colSum_from_zero]
  unfold edgeDeg wSum colSum nodeDeg
  refine congrArg (fun t => Ideal.div t _) (Finset.sum_congr rfl fun n _ => ?_)
  rw [mulf_apply, spread_apply, rowSum_from_zero]

/-- If the precondition holds of `(x, B, W)` then no node degree and no edge degree of `B` is negative. -/
theorem degrees_nonneg (x : FVec Ideal S10000x128 .f32) (B : FVec Ideal S10000x4096 .f32) (W : FVec Ideal S128x128 .f32)
    (h : Cert.Pre_finite_inputs.fn (F := Ideal) x B W = fun _ => 1#1) :
    (∀ n, 0 ≤ nodeDeg B n) ∧ (∀ e, 0 ≤ edgeDeg B e) := by
  have h0 := congrFun h ix0
  dsimp only [fn, fn_part1] at h0
  obtain ⟨h24, h27⟩ := IntOp.andi_eq_one.1 h0
  obtain ⟨_, h23⟩ := IntOp.andi_eq_one.1 h24
  refine ⟨fun n => ?_, fun e => ?_⟩
  · have hn := Host.reduce_andi_all _ _ _ _ ix0 h23 (ix1 n)
    rw [cmpf_apply, oge_eq_one_iff, zeros_apply, rowSum_from_zero] at hn
    exact hn
  · have he := Host.reduce_andi_all _ _ _ _ ix0 h27 (ix1 e)
    rw [cmpf_apply, oge_eq_one_iff, zeros_apply, quotient_apply] at he
    exact he

end Cert.Precondition

end
-- ==== Proof.lean ====
import proofs.«168818_g910533067196_cont_9to1c4b_380_8_alg».proof.Defs
import proofs.«168818_g910533067196_cont_9to1c4b_380_8_alg».proof.Proof.Gen.Kernel
import proofs.«168818_g910533067196_cont_9to1c4b_380_8_alg».proof.Proof.Gen.KernelIdeal
import proofs.«168818_g910533067196_cont_9to1c4b_380_8_alg».proof.Proof.Gen.ReferenceIdeal
import proofs.«168818_g910533067196_cont_9to1c4b_380_8_alg».proof.Proof.Gen.Pre_finite_inputs
import proofs.«168818_g910533067196_cont_9to1c4b_380_8_alg».proof.Proof.Gen.ReferenceIdeal.Run
import proofs.«168818_g910533067196_cont_9to1c4b_380_8_alg».proof.Proof.Gen.ReferenceIdeal.Read
import proofs.«168818_g910533067196_cont_9to1c4b_380_8_alg».proof.Proof.BitsMainRun
import proofs.«168818_g910533067196_cont_9to1c4b_380_8_alg».proof.Proof.MainRun
import proofs.«168818_g910533067196_cont_9to1c4b_380_8_alg».proof.Proof.KernelValue
import proofs.«168818_g910533067196_cont_9to1c4b_380_8_alg».proof.Proof.ReferenceLayer
import proofs.«168818_g910533067196_cont_9to1c4b_380_8_alg».proof.Proof.PreDegrees
import proofs.«168818_g910533067196_cont_9to1c4b_380_8_alg».proof.Proof.Layer
import Idealize.ShloMosaic.Adequacy
import Idealize.ShloMosaic.Init

/-!
# A hypergraph layer in two passes over the incidence matrix, against its plain reference

The kernel makes two passes over the row blocks of the incidence matrix `B`: the first accumulates `xᵀ B`, the column
sums of `B` and the column sums weighted by the row sums; the second scales the message table by the edge degrees'
reciprocal square roots once, and then forms each block's rows of the result. The reference computes the same layer
with whole-array operations and writes `y^(-1/2)` as the quotient `1 / √y`.

On the extended reals the two programs agree exactly where no node degree and no edge degree is negative — the domain
of the reference's two square roots, which the precondition states: below zero `1 / √y` reads `1 / ⊥ = 0` while the
reciprocal square root reads `⊥`. On that domain the reciprocal square root IS the quotient (`Cert.Layer.rsqrt_eq_refInv`),
and what is left between the two sides is the order of factors and the grouping of sums (`Cert.Layer.kerOut_eq_refOut`).

* Both kernel programs run to the end, fault nowhere and leave their arguments as launched: each pass's body is run
  at every grid point against what its buffers then hold (`PassOne`, `PassTwo`), and the passes and the host's
  transposition between them are chained from the launch memory (`MainRun`); the word-level program's modules are the
  same text over its own definitions.
* The idealized kernel's result array is `Cert.Layer.kerOut` of the arguments (`PassOneValue`, `PassTwoValue`,
  `KernelValue`); the reference's is `Cert.Layer.refOut` (`ReferenceLayer`); the precondition gives the two degree
  hypotheses (`PreDegrees`).
* The ideal pass rewrote nothing, so the idealized kernel is the kernel's own text read exactly.
-/

noncomputable section

namespace Cert.Proof

open Idealize.ShloMosaic Idealize.SL.Sem

/-- The word-level kernel runs and leaves its arguments unchanged. -/
theorem frame_k [Cert.Pre_finite_inputs.Facts] [Cert.Kernel.Facts] : Cert.frame_Kernel :=
  fun m ρ _ => Cert.Kernel.Hand.frame m ρ

/-- The idealized kernel runs and leaves its arguments unchanged. -/
theorem frame_ki [Cert.Pre_finite_inputs.Facts] [Cert.KernelIdeal.Facts] : Cert.frame_KernelIdeal :=
  fun m ρ _ => Cert.KernelIdeal.Hand.frame m ρ

/-- The reference runs and leaves its arguments unchanged: its run with the result dropped. -/
theorem frame_ri [Cert.Pre_finite_inputs.Facts] [Cert.ReferenceIdeal.Facts] : Cert.frame_ReferenceIdeal :=
  fun m ρ _ => (θ_run Cert.ReferenceIdeal.defs _ _).mono (fun _ h c => (h c).2) (Cert.ReferenceIdeal.Value.run (F := Ideal) m ρ)

/-- From memories that agree on the arguments, under the precondition, both idealized programs end with the same
    result array: the kernel's is `kerOut` of the arguments, the reference's `refOut`, and the precondition's two
    degree conjuncts make them one function. -/
theorem algebraic [Cert.Pre_finite_inputs.Facts] [Cert.KernelIdeal.Facts] [Cert.ReferenceIdeal.Facts] :
    Cert.algebraic_KernelIdeal_ReferenceIdeal := by
  intro m ρ m' ρ' hpre hagree
  refine ⟨fun c => Cert.Layer.kerOut (Cert.KernelIdeal.Hand.argX m c) (Cert.KernelIdeal.Hand.argB m c) (Cert.KernelIdeal.Hand.argW m c), ?_, ?_⟩
  · exact (θ_run Cert.KernelIdeal.defs _ _).mono
      (fun r h c => ⟨(h c).1.trans (Cert.KernelIdeal.Hand.result_value m c), (h c).2⟩)
      (Cert.KernelIdeal.Hand.run_value m ρ)
  · refine (θ_run Cert.ReferenceIdeal.defs _ _).mono (fun r h c => ⟨(h c).1.trans ?_, (h c).2⟩)
      (Cert.ReferenceIdeal.Value.run (F := Ideal) m' ρ')
    obtain ⟨hn, he⟩ := Cert.Precondition.degrees_nonneg _ _ _ (hpre c)
    rw [Cert.ReferenceIdeal.Read.val_main_v33_eq, Cert.ReferenceIdeal.RefValue.reference_is_layer,
      (hagree c).1, (hagree c).2.1, (hagree c).2.2]
    exact (Cert.Layer.kerOut_eq_refOut _ _ _ hn he).symm

theorem claim : Cert.Claim :=
  ⟨Cert.Kernel.Gen.facts, Cert.KernelIdeal.Gen.facts, Cert.ReferenceIdeal.Gen.facts, Cert.Pre_finite_inputs.Gen.facts,
    @frame_k Cert.Pre_finite_inputs.Gen.facts Cert.Kernel.Gen.facts,
    @frame_ki Cert.Pre_finite_inputs.Gen.facts Cert.KernelIdeal.Gen.facts,
    @frame_ri Cert.Pre_finite_inputs.Gen.facts Cert.ReferenceIdeal.Gen.facts,
    trivial,
    @algebraic Cert.Pre_finite_inputs.Gen.facts Cert.KernelIdeal.Gen.facts Cert.ReferenceIdeal.Gen.facts⟩

end Cert.Proof

end
